-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32768x16 : Shape := ⟨3, ![64, 32768, 16]⟩
abbrev S_ : Shape := ⟨0, ![]⟩

class Facts : Prop where
  bcast_S_S64x32768x16 : S_.BroadcastsInDim S64x32768x16 (![] : Fin 0 → Fin S64x32768x16.rank)
  reducesTo_S64x32768x16_S_d0_1_2 : S64x32768x16.ReducesTo [0, 1, 2] S_
  h_S_ : 0 < S_.numel

variable [Facts]

def fn {F : FTy → Type} [FloatOps F] (main_arg0 : FVec F S64x32768x16 .f32) : IVec S_ 1 :=
  let main_v0 : FVec F S64x32768x16 .f32 := Host.absf main_arg0
  let main_cst : FVec F S_ .f32 := constant S_ .f32 0x7F800000#32
  let main_v1 : FVec F S64x32768x16 .f32 := broadcastInDim S64x32768x16 ![] bcast_S_S64x32768x16 main_cst
  let main_v2 : IVec S64x32768x16 1 := cmpf .olt main_v0 main_v1
  let main_c : IVec S_ 1 := constantI S_ 1 1#1
  let main_v3 : IVec S_ 1 := (fun x v => Host.reduce IntOp.andi x v reducesTo_S64x32768x16_S_d0_1_2 h_S_) main_v2 main_c
  main_v3
-- ==== Kernel.lean ====
abbrev S64x32768x16 : Shape := ⟨3, ![64, 32768, 16]⟩
abbrev S64x16x32768 : Shape := ⟨3, ![64, 16, 32768]⟩
abbrev S32x16x2048 : Shape := ⟨3, ![32, 16, 2048]⟩
abbrev S32x15x2048 : Shape := ⟨3, ![32, 15, 2048]⟩
abbrev S32x1x2048 : Shape := ⟨3, ![32, 1, 2048]⟩
abbrev S32x14x2048 : Shape := ⟨3, ![32, 14, 2048]⟩
abbrev S32x2x2048 : Shape := ⟨3, ![32, 2, 2048]⟩
abbrev S32x13x2048 : Shape := ⟨3, ![32, 13, 2048]⟩
abbrev S32x3x2048 : Shape := ⟨3, ![32, 3, 2048]⟩
abbrev S32x12x2048 : Shape := ⟨3, ![32, 12, 2048]⟩
abbrev S32x4x2048 : Shape := ⟨3, ![32, 4, 2048]⟩
abbrev S32x11x2048 : Shape := ⟨3, ![32, 11, 2048]⟩
abbrev S32x5x2048 : Shape := ⟨3, ![32, 5, 2048]⟩
abbrev S32x10x2048 : Shape := ⟨3, ![32, 10, 2048]⟩
abbrev S32x6x2048 : Shape := ⟨3, ![32, 6, 2048]⟩
abbrev S32x9x2048 : Shape := ⟨3, ![32, 9, 2048]⟩
abbrev S32x7x2048 : Shape := ⟨3, ![32, 7, 2048]⟩
abbrev S32x8x2048 : Shape := ⟨3, ![32, 8, 2048]⟩

abbrev nBuf : Space → Nat
  | .hbm => 4
  | .vmem => 4
  | .smem => 0
  | _ => 0

abbrev bufTy : (tb : Table) → Fin (tcTables nBuf tb) → BufTy
  | .hbm, ⟨0, _⟩ => ⟨S64x32768x16, .f32⟩
  | .hbm, ⟨1, _⟩ => ⟨S64x16x32768, .f32⟩
  | .hbm, ⟨2, _⟩ => ⟨S64x16x32768, .f32⟩
  | .hbm, ⟨3, _⟩ => ⟨S64x32768x16, .f32⟩
  | .local _ .vmem, ⟨0, _⟩ => ⟨S32x16x2048, .f32⟩
  | .local _ .vmem, ⟨1, _⟩ => ⟨S32x16x2048, .f32⟩
  | .local _ .vmem, ⟨2, _⟩ => ⟨S32x16x2048, .f32⟩
  | .local _ .vmem, ⟨3, _⟩ => ⟨S32x16x2048, .f32⟩
  | _, _ => ⟨S64x32768x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S32x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  transposes_S64x32768x16_S64x16x32768_0_2_1 : S64x32768x16.Transposes [0, 2, 1] S64x16x32768
  inb_S32x16x2048_S32x16x2048_0_0_0 : ∀ a, (![0, 0, 0] : Fin 3 → Nat) a + S32x16x2048.size a ≤ S32x16x2048.size a
  h_S32x16x2048 : 0 < S32x16x2048.numel
  shapeCasts_S32x16x2048_S32x16x2048 : S32x16x2048.ShapeCasts S32x16x2048
  slices_S32x16x2048_o0_0_0_S32x15x2048 : S32x16x2048.Slices ![0, 0, 0] S32x15x2048
  slices_S32x16x2048_o0_15_0_S32x1x2048 : S32x16x2048.Slices ![0, 15, 0] S32x1x2048
  slices_S32x15x2048_o0_14_0_S32x1x2048 : S32x15x2048.Slices ![0, 14, 0] S32x1x2048
  slices_S32x15x2048_o0_13_0_S32x1x2048 : S32x15x2048.Slices ![0, 13, 0] S32x1x2048
  slices_S32x15x2048_o0_12_0_S32x1x2048 : S32x15x2048.Slices ![0, 12, 0] S32x1x2048
  slices_S32x15x2048_o0_11_0_S32x1x2048 : S32x15x2048.Slices ![0, 11, 0] S32x1x2048
  slices_S32x15x2048_o0_10_0_S32x1x2048 : S32x15x2048.Slices ![0, 10, 0] S32x1x2048
  slices_S32x15x2048_o0_9_0_S32x1x2048 : S32x15x2048.Slices ![0, 9, 0] S32x1x2048
  slices_S32x15x2048_o0_8_0_S32x1x2048 : S32x15x2048.Slices ![0, 8, 0] S32x1x2048
  slices_S32x15x2048_o0_7_0_S32x1x2048 : S32x15x2048.Slices ![0, 7, 0] S32x1x2048
  slices_S32x15x2048_o0_6_0_S32x1x2048 : S32x15x2048.Slices ![0, 6, 0] S32x1x2048
  slices_S32x15x2048_o0_5_0_S32x1x2048 : S32x15x2048.Slices ![0, 5, 0] S32x1x2048
  slices_S32x15x2048_o0_4_0_S32x1x2048 : S32x15x2048.Slices ![0, 4, 0] S32x1x2048
  slices_S32x15x2048_o0_3_0_S32x1x2048 : S32x15x2048.Slices ![0, 3, 0] S32x1x2048
  slices_S32x15x2048_o0_2_0_S32x1x2048 : S32x15x2048.Slices ![0, 2, 0] S32x1x2048
  slices_S32x15x2048_o0_1_0_S32x1x2048 : S32x15x2048.Slices ![0, 1, 0] S32x1x2048
  slices_S32x15x2048_o0_0_0_S32x1x2048 : S32x15x2048.Slices ![0, 0, 0] S32x1x2048
  concatenates_S32x1x2048_S32x1x2048_S32x1x2048_S32x1x2048_S32x1x2048_S32x1x2048_S32x1x2048_S32x1x2048_S32x1x2048_S32x1x2048_S32x1x2048_S32x1x2048_S32x1x2048_S32x1x2048_S32x1x2048_S32x15x2048_d1 : Shape.Concatenates [S32x1x2048, S32x1x2048, S32x1x2048, S32x1x2048, S32x1x2048, S32x1x2048, S32x1x2048, S32x1x2048, S32x1x2048, S32x1x2048, S32x1x2048, S32x1x2048, S32x1x2048, S32x1x2048, S32x1x2048] S32x15x2048 1
  broadcasts_S32x1x2048_S32x15x2048 : S32x1x2048.Broadcasts S32x15x2048
  concatenates_S32x15x2048_S32x1x2048_S32x16x2048_d1 : Shape.Concatenates [S32x15x2048, S32x1x2048] S32x16x2048 1
  slices_S32x16x2048_o0_0_0_S32x14x2048 : S32x16x2048.Slices ![0, 0, 0] S32x14x2048
  slices_S32x16x2048_o0_14_0_S32x2x2048 : S32x16x2048.Slices ![0, 14, 0] S32x2x2048
  slices_S32x2x2048_o0_0_0_S32x1x2048 : S32x2x2048.Slices ![0, 0, 0] S32x1x2048
  slices_S32x14x2048_o0_13_0_S32x1x2048 : S32x14x2048.Slices ![0, 13, 0] S32x1x2048
  slices_S32x14x2048_o0_12_0_S32x1x2048 : S32x14x2048.Slices ![0, 12, 0] S32x1x2048
  slices_S32x14x2048_o0_11_0_S32x1x2048 : S32x14x2048.Slices ![0, 11, 0] S32x1x2048
  slices_S32x14x2048_o0_10_0_S32x1x2048 : S32x14x2048.Slices ![0, 10, 0] S32x1x2048
  slices_S32x14x2048_o0_9_0_S32x1x2048 : S32x14x2048.Slices ![0, 9, 0] S32x1x2048
  slices_S32x14x2048_o0_8_0_S32x1x2048 : S32x14x2048.Slices ![0, 8, 0] S32x1x2048
  slices_S32x14x2048_o0_7_0_S32x1x2048 : S32x14x2048.Slices ![0, 7, 0] S32x1x2048
  slices_S32x14x2048_o0_6_0_S32x1x2048 : S32x14x2048.Slices ![0, 6, 0] S32x1x2048
  slices_S32x14x2048_o0_5_0_S32x1x2048 : S32x14x2048.Slices ![0, 5, 0] S32x1x2048
  slices_S32x14x2048_o0_4_0_S32x1x2048 : S32x14x2048.Slices ![0, 4, 0] S32x1x2048
  slices_S32x14x2048_o0_3_0_S32x1x2048 : S32x14x2048.Slices ![0, 3, 0] S32x1x2048
  slices_S32x14x2048_o0_2_0_S32x1x2048 : S32x14x2048.Slices ![0, 2, 0] S32x1x2048
  slices_S32x14x2048_o0_1_0_S32x1x2048 : S32x14x2048.Slices ![0, 1, 0] S32x1x2048
  slices_S32x14x2048_o0_0_0_S32x1x2048 : S32x14x2048.Slices ![0, 0, 0] S32x1x2048
  concatenates_S32x1x2048_S32x1x2048_S32x1x2048_S32x1x2048_S32x1x2048_S32x1x2048_S32x1x2048_S32x1x2048_S32x1x2048_S32x1x2048_S32x1x2048_S32x1x2048_S32x1x2048_S32x1x2048_S32x14x2048_d1 : Shape.Concatenates [S32x1x2048, S32x1x2048, S32x1x2048, S32x1x2048, S32x1x2048, S32x1x2048, S32x1x2048, S32x1x2048, S32x1x2048, S32x1x2048, S32x1x2048, S32x1x2048, S32x1x2048, S32x1x2048] S32x14x2048 1
  broadcasts_S32x1x2048_S32x14x2048 : S32x1x2048.Broadcasts S32x14x2048
  concatenates_S32x14x2048_S32x2x2048_S32x16x2048_d1 : Shape.Concatenates [S32x14x2048, S32x2x2048] S32x16x2048 1
  slices_S32x16x2048_o0_0_0_S32x13x2048 : S32x16x2048.Slices ![0, 0, 0] S32x13x2048
  slices_S32x16x2048_o0_13_0_S32x3x2048 : S32x16x2048.Slices ![0, 13, 0] S32x3x2048
  slices_S32x3x2048_o0_0_0_S32x1x2048 : S32x3x2048.Slices ![0, 0, 0] S32x1x2048
  slices_S32x13x2048_o0_12_0_S32x1x2048 : S32x13x2048.Slices ![0, 12, 0] S32x1x2048
  slices_S32x13x2048_o0_11_0_S32x1x2048 : S32x13x2048.Slices ![0, 11, 0] S32x1x2048
  slices_S32x13x2048_o0_10_0_S32x1x2048 : S32x13x2048.Slices ![0, 10, 0] S32x1x2048
  slices_S32x13x2048_o0_9_0_S32x1x2048 : S32x13x2048.Slices ![0, 9, 0] S32x1x2048
  slices_S32x13x2048_o0_8_0_S32x1x2048 : S32x13x2048.Slices ![0, 8, 0] S32x1x2048
  slices_S32x13x2048_o0_7_0_S32x1x2048 : S32x13x2048.Slices ![0, 7, 0] S32x1x2048
  slices_S32x13x2048_o0_6_0_S32x1x2048 : S32x13x2048.Slices ![0, 6, 0] S32x1x2048
  slices_S32x13x2048_o0_5_0_S32x1x2048 : S32x13x2048.Slices ![0, 5, 0] S32x1x2048
  slices_S32x13x2048_o0_4_0_S32x1x2048 : S32x13x2048.Slices ![0, 4, 0] S32x1x2048
  slices_S32x13x2048_o0_3_0_S32x1x2048 : S32x13x2048.Slices ![0, 3, 0] S32x1x2048
  slices_S32x13x2048_o0_2_0_S32x1x2048 : S32x13x2048.Slices ![0, 2, 0] S32x1x2048
  slices_S32x13x2048_o0_1_0_S32x1x2048 : S32x13x2048.Slices ![0, 1, 0] S32x1x2048
  slices_S32x13x2048_o0_0_0_S32x1x2048 : S32x13x2048.Slices ![0, 0, 0] S32x1x2048
  concatenates_S32x1x2048_S32x1x2048_S32x1x2048_S32x1x2048_S32x1x2048_S32x1x2048_S32x1x2048_S32x1x2048_S32x1x2048_S32x1x2048_S32x1x2048_S32x1x2048_S32x1x2048_S32x13x2048_d1 : Shape.Concatenates [S32x1x2048, S32x1x2048, S32x1x2048, S32x1x2048, S32x1x2048, S32x1x2048, S32x1x2048, S32x1x2048, S32x1x2048, S32x1x2048, S32x1x2048, S32x1x2048, S32x1x2048] S32x13x2048 1
  broadcasts_S32x1x2048_S32x13x2048 : S32x1x2048.Broadcasts S32x13x2048
  concatenates_S32x13x2048_S32x3x2048_S32x16x2048_d1 : Shape.Concatenates [S32x13x2048, S32x3x2048] S32x16x2048 1
  slices_S32x16x2048_o0_0_0_S32x12x2048 : S32x16x2048.Slices ![0, 0, 0] S32x12x2048
  slices_S32x16x2048_o0_12_0_S32x4x2048 : S32x16x2048.Slices ![0, 12, 0] S32x4x2048
  slices_S32x4x2048_o0_0_0_S32x1x2048 : S32x4x2048.Slices ![0, 0, 0] S32x1x2048
  slices_S32x12x2048_o0_11_0_S32x1x2048 : S32x12x2048.Slices ![0, 11, 0] S32x1x2048
  slices_S32x12x2048_o0_10_0_S32x1x2048 : S32x12x2048.Slices ![0, 10, 0] S32x1x2048
  slices_S32x12x2048_o0_9_0_S32x1x2048 : S32x12x2048.Slices ![0, 9, 0] S32x1x2048
  slices_S32x12x2048_o0_8_0_S32x1x2048 : S32x12x2048.Slices ![0, 8, 0] S32x1x2048
  slices_S32x12x2048_o0_7_0_S32x1x2048 : S32x12x2048.Slices ![0, 7, 0] S32x1x2048
  slices_S32x12x2048_o0_6_0_S32x1x2048 : S32x12x2048.Slices ![0, 6, 0] S32x1x2048
  slices_S32x12x2048_o0_5_0_S32x1x2048 : S32x12x2048.Slices ![0, 5, 0] S32x1x2048
  slices_S32x12x2048_o0_4_0_S32x1x2048 : S32x12x2048.Slices ![0, 4, 0] S32x1x2048
  slices_S32x12x2048_o0_3_0_S32x1x2048 : S32x12x2048.Slices ![0, 3, 0] S32x1x2048
  slices_S32x12x2048_o0_2_0_S32x1x2048 : S32x12x2048.Slices ![0, 2, 0] S32x1x2048
  slices_S32x12x2048_o0_1_0_S32x1x2048 : S32x12x2048.Slices ![0, 1, 0] S32x1x2048
  slices_S32x12x2048_o0_0_0_S32x1x2048 : S32x12x2048.Slices ![0, 0, 0] S32x1x2048
  concatenates_S32x1x2048_S32x1x2048_S32x1x2048_S32x1x2048_S32x1x2048_S32x1x2048_S32x1x2048_S32x1x2048_S32x1x2048_S32x1x2048_S32x1x2048_S32x1x2048_S32x12x2048_d1 : Shape.Concatenates [S32x1x2048, S32x1x2048, S32x1x2048, S32x1x2048, S32x1x2048, S32x1x2048, S32x1x2048, S32x1x2048, S32x1x2048, S32x1x2048, S32x1x2048, S32x1x2048] S32x12x2048 1
  broadcasts_S32x1x2048_S32x12x2048 : S32x1x2048.Broadcasts S32x12x2048
  concatenates_S32x12x2048_S32x4x2048_S32x16x2048_d1 : Shape.Concatenates [S32x12x2048, S32x4x2048] S32x16x2048 1
  slices_S32x16x2048_o0_0_0_S32x11x2048 : S32x16x2048.Slices ![0, 0, 0] S32x11x2048
  slices_S32x16x2048_o0_11_0_S32x5x2048 : S32x16x2048.Slices ![0, 11, 0] S32x5x2048
  slices_S32x5x2048_o0_0_0_S32x1x2048 : S32x5x2048.Slices ![0, 0, 0] S32x1x2048
  slices_S32x11x2048_o0_10_0_S32x1x2048 : S32x11x2048.Slices ![0, 10, 0] S32x1x2048
  slices_S32x11x2048_o0_9_0_S32x1x2048 : S32x11x2048.Slices ![0, 9, 0] S32x1x2048
  slices_S32x11x2048_o0_8_0_S32x1x2048 : S32x11x2048.Slices ![0, 8, 0] S32x1x2048
  slices_S32x11x2048_o0_7_0_S32x1x2048 : S32x11x2048.Slices ![0, 7, 0] S32x1x2048
  slices_S32x11x2048_o0_6_0_S32x1x2048 : S32x11x2048.Slices ![0, 6, 0] S32x1x2048
  slices_S32x11x2048_o0_5_0_S32x1x2048 : S32x11x2048.Slices ![0, 5, 0] S32x1x2048
  slices_S32x11x2048_o0_4_0_S32x1x2048 : S32x11x2048.Slices ![0, 4, 0] S32x1x2048
  slices_S32x11x2048_o0_3_0_S32x1x2048 : S32x11x2048.Slices ![0, 3, 0] S32x1x2048
  slices_S32x11x2048_o0_2_0_S32x1x2048 : S32x11x2048.Slices ![0, 2, 0] S32x1x2048
  slices_S32x11x2048_o0_1_0_S32x1x2048 : S32x11x2048.Slices ![0, 1, 0] S32x1x2048
  slices_S32x11x2048_o0_0_0_S32x1x2048 : S32x11x2048.Slices ![0, 0, 0] S32x1x2048
  concatenates_S32x1x2048_S32x1x2048_S32x1x2048_S32x1x2048_S32x1x2048_S32x1x2048_S32x1x2048_S32x1x2048_S32x1x2048_S32x1x2048_S32x1x2048_S32x11x2048_d1 : Shape.Concatenates [S32x1x2048, S32x1x2048, S32x1x2048, S32x1x2048, S32x1x2048, S32x1x2048, S32x1x2048, S32x1x2048, S32x1x2048, S32x1x2048, S32x1x2048] S32x11x2048 1
  broadcasts_S32x1x2048_S32x11x2048 : S32x1x2048.Broadcasts S32x11x2048
  concatenates_S32x11x2048_S32x5x2048_S32x16x2048_d1 : Shape.Concatenates [S32x11x2048, S32x5x2048] S32x16x2048 1
  slices_S32x16x2048_o0_0_0_S32x10x2048 : S32x16x2048.Slices ![0, 0, 0] S32x10x2048
  slices_S32x16x2048_o0_10_0_S32x6x2048 : S32x16x2048.Slices ![0, 10, 0] S32x6x2048
  slices_S32x6x2048_o0_0_0_S32x1x2048 : S32x6x2048.Slices ![0, 0, 0] S32x1x2048
  slices_S32x10x2048_o0_9_0_S32x1x2048 : S32x10x2048.Slices ![0, 9, 0] S32x1x2048
  slices_S32x10x2048_o0_8_0_S32x1x2048 : S32x10x2048.Slices ![0, 8, 0] S32x1x2048
  slices_S32x10x2048_o0_7_0_S32x1x2048 : S32x10x2048.Slices ![0, 7, 0] S32x1x2048
  slices_S32x10x2048_o0_6_0_S32x1x2048 : S32x10x2048.Slices ![0, 6, 0] S32x1x2048
  slices_S32x10x2048_o0_5_0_S32x1x2048 : S32x10x2048.Slices ![0, 5, 0] S32x1x2048
  slices_S32x10x2048_o0_4_0_S32x1x2048 : S32x10x2048.Slices ![0, 4, 0] S32x1x2048
  slices_S32x10x2048_o0_3_0_S32x1x2048 : S32x10x2048.Slices ![0, 3, 0] S32x1x2048
  slices_S32x10x2048_o0_2_0_S32x1x2048 : S32x10x2048.Slices ![0, 2, 0] S32x1x2048
  slices_S32x10x2048_o0_1_0_S32x1x2048 : S32x10x2048.Slices ![0, 1, 0] S32x1x2048
  slices_S32x10x2048_o0_0_0_S32x1x2048 : S32x10x2048.Slices ![0, 0, 0] S32x1x2048
  concatenates_S32x1x2048_S32x1x2048_S32x1x2048_S32x1x2048_S32x1x2048_S32x1x2048_S32x1x2048_S32x1x2048_S32x1x2048_S32x1x2048_S32x10x2048_d1 : Shape.Concatenates [S32x1x2048, S32x1x2048, S32x1x2048, S32x1x2048, S32x1x2048, S32x1x2048, S32x1x2048, S32x1x2048, S32x1x2048, S32x1x2048] S32x10x2048 1
  broadcasts_S32x1x2048_S32x10x2048 : S32x1x2048.Broadcasts S32x10x2048
  concatenates_S32x10x2048_S32x6x2048_S32x16x2048_d1 : Shape.Concatenates [S32x10x2048, S32x6x2048] S32x16x2048 1
  slices_S32x16x2048_o0_0_0_S32x9x2048 : S32x16x2048.Slices ![0, 0, 0] S32x9x2048
  slices_S32x16x2048_o0_9_0_S32x7x2048 : S32x16x2048.Slices ![0, 9, 0] S32x7x2048
  slices_S32x7x2048_o0_0_0_S32x1x2048 : S32x7x2048.Slices ![0, 0, 0] S32x1x2048
  slices_S32x9x2048_o0_8_0_S32x1x2048 : S32x9x2048.Slices ![0, 8, 0] S32x1x2048
  slices_S32x9x2048_o0_7_0_S32x1x2048 : S32x9x2048.Slices ![0, 7, 0] S32x1x2048
  slices_S32x9x2048_o0_6_0_S32x1x2048 : S32x9x2048.Slices ![0, 6, 0] S32x1x2048
  slices_S32x9x2048_o0_5_0_S32x1x2048 : S32x9x2048.Slices ![0, 5, 0] S32x1x2048
  slices_S32x9x2048_o0_4_0_S32x1x2048 : S32x9x2048.Slices ![0, 4, 0] S32x1x2048
  slices_S32x9x2048_o0_3_0_S32x1x2048 : S32x9x2048.Slices ![0, 3, 0] S32x1x2048
  slices_S32x9x2048_o0_2_0_S32x1x2048 : S32x9x2048.Slices ![0, 2, 0] S32x1x2048
  slices_S32x9x2048_o0_1_0_S32x1x2048 : S32x9x2048.Slices ![0, 1, 0] S32x1x2048
  slices_S32x9x2048_o0_0_0_S32x1x2048 : S32x9x2048.Slices ![0, 0, 0] S32x1x2048
  concatenates_S32x1x2048_S32x1x2048_S32x1x2048_S32x1x2048_S32x1x2048_S32x1x2048_S32x1x2048_S32x1x2048_S32x1x2048_S32x9x2048_d1 : Shape.Concatenates [S32x1x2048, S32x1x2048, S32x1x2048, S32x1x2048, S32x1x2048, S32x1x2048, S32x1x2048, S32x1x2048, S32x1x2048] S32x9x2048 1
  broadcasts_S32x1x2048_S32x9x2048 : S32x1x2048.Broadcasts S32x9x2048
  concatenates_S32x9x2048_S32x7x2048_S32x16x2048_d1 : Shape.Concatenates [S32x9x2048, S32x7x2048] S32x16x2048 1
  slices_S32x16x2048_o0_0_0_S32x8x2048 : S32x16x2048.Slices ![0, 0, 0] S32x8x2048
  slices_S32x16x2048_o0_8_0_S32x8x2048 : S32x16x2048.Slices ![0, 8, 0] S32x8x2048
  slices_S32x8x2048_o0_0_0_S32x1x2048 : S32x8x2048.Slices ![0, 0, 0] S32x1x2048
  slices_S32x8x2048_o0_7_0_S32x1x2048 : S32x8x2048.Slices ![0, 7, 0] S32x1x2048
  slices_S32x8x2048_o0_6_0_S32x1x2048 : S32x8x2048.Slices ![0, 6, 0] S32x1x2048
  slices_S32x8x2048_o0_5_0_S32x1x2048 : S32x8x2048.Slices ![0, 5, 0] S32x1x2048
  slices_S32x8x2048_o0_4_0_S32x1x2048 : S32x8x2048.Slices ![0, 4, 0] S32x1x2048
  slices_S32x8x2048_o0_3_0_S32x1x2048 : S32x8x2048.Slices ![0, 3, 0] S32x1x2048
  slices_S32x8x2048_o0_2_0_S32x1x2048 : S32x8x2048.Slices ![0, 2, 0] S32x1x2048
  slices_S32x8x2048_o0_1_0_S32x1x2048 : S32x8x2048.Slices ![0, 1, 0] S32x1x2048
  concatenates_S32x1x2048_S32x1x2048_S32x1x2048_S32x1x2048_S32x1x2048_S32x1x2048_S32x1x2048_S32x1x2048_S32x8x2048_d1 : Shape.Concatenates [S32x1x2048, S32x1x2048, S32x1x2048, S32x1x2048, S32x1x2048, S32x1x2048, S32x1x2048, S32x1x2048] S32x8x2048 1
  broadcasts_S32x1x2048_S32x8x2048 : S32x1x2048.Broadcasts S32x8x2048
  concatenates_S32x8x2048_S32x8x2048_S32x16x2048_d1 : Shape.Concatenates [S32x8x2048, S32x8x2048] S32x16x2048 1
  slices_S32x16x2048_o0_0_0_S32x7x2048 : S32x16x2048.Slices ![0, 0, 0] S32x7x2048
  slices_S32x16x2048_o0_7_0_S32x9x2048 : S32x16x2048.Slices ![0, 7, 0] S32x9x2048
  slices_S32x7x2048_o0_6_0_S32x1x2048 : S32x7x2048.Slices ![0, 6, 0] S32x1x2048
  slices_S32x7x2048_o0_5_0_S32x1x2048 : S32x7x2048.Slices ![0, 5, 0] S32x1x2048
  slices_S32x7x2048_o0_4_0_S32x1x2048 : S32x7x2048.Slices ![0, 4, 0] S32x1x2048
  slices_S32x7x2048_o0_3_0_S32x1x2048 : S32x7x2048.Slices ![0, 3, 0] S32x1x2048
  slices_S32x7x2048_o0_2_0_S32x1x2048 : S32x7x2048.Slices ![0, 2, 0] S32x1x2048
  slices_S32x7x2048_o0_1_0_S32x1x2048 : S32x7x2048.Slices ![0, 1, 0] S32x1x2048
  concatenates_S32x1x2048_S32x1x2048_S32x1x2048_S32x1x2048_S32x1x2048_S32x1x2048_S32x1x2048_S32x7x2048_d1 : Shape.Concatenates [S32x1x2048, S32x1x2048, S32x1x2048, S32x1x2048, S32x1x2048, S32x1x2048, S32x1x2048] S32x7x2048 1
  broadcasts_S32x1x2048_S32x7x2048 : S32x1x2048.Broadcasts S32x7x2048
  concatenates_S32x7x2048_S32x9x2048_S32x16x2048_d1 : Shape.Concatenates [S32x7x2048, S32x9x2048] S32x16x2048 1
  slices_S32x16x2048_o0_0_0_S32x6x2048 : S32x16x2048.Slices ![0, 0, 0] S32x6x2048
  slices_S32x16x2048_o0_6_0_S32x10x2048 : S32x16x2048.Slices ![0, 6, 0] S32x10x2048
  slices_S32x6x2048_o0_5_0_S32x1x2048 : S32x6x2048.Slices ![0, 5, 0] S32x1x2048
  slices_S32x6x2048_o0_4_0_S32x1x2048 : S32x6x2048.Slices ![0, 4, 0] S32x1x2048
  slices_S32x6x2048_o0_3_0_S32x1x2048 : S32x6x2048.Slices ![0, 3, 0] S32x1x2048
  slices_S32x6x2048_o0_2_0_S32x1x2048 : S32x6x2048.Slices ![0, 2, 0] S32x1x2048
  slices_S32x6x2048_o0_1_0_S32x1x2048 : S32x6x2048.Slices ![0, 1, 0] S32x1x2048
  concatenates_S32x1x2048_S32x1x2048_S32x1x2048_S32x1x2048_S32x1x2048_S32x1x2048_S32x6x2048_d1 : Shape.Concatenates [S32x1x2048, S32x1x2048, S32x1x2048, S32x1x2048, S32x1x2048, S32x1x2048] S32x6x2048 1
  broadcasts_S32x1x2048_S32x6x2048 : S32x1x2048.Broadcasts S32x6x2048
  concatenates_S32x6x2048_S32x10x2048_S32x16x2048_d1 : Shape.Concatenates [S32x6x2048, S32x10x2048] S32x16x2048 1
  slices_S32x16x2048_o0_0_0_S32x5x2048 : S32x16x2048.Slices ![0, 0, 0] S32x5x2048
  slices_S32x16x2048_o0_5_0_S32x11x2048 : S32x16x2048.Slices ![0, 5, 0] S32x11x2048
  slices_S32x5x2048_o0_4_0_S32x1x2048 : S32x5x2048.Slices ![0, 4, 0] S32x1x2048
  slices_S32x5x2048_o0_3_0_S32x1x2048 : S32x5x2048.Slices ![0, 3, 0] S32x1x2048
  slices_S32x5x2048_o0_2_0_S32x1x2048 : S32x5x2048.Slices ![0, 2, 0] S32x1x2048
  slices_S32x5x2048_o0_1_0_S32x1x2048 : S32x5x2048.Slices ![0, 1, 0] S32x1x2048
  concatenates_S32x1x2048_S32x1x2048_S32x1x2048_S32x1x2048_S32x1x2048_S32x5x2048_d1 : Shape.Concatenates [S32x1x2048, S32x1x2048, S32x1x2048, S32x1x2048, S32x1x2048] S32x5x2048 1
  broadcasts_S32x1x2048_S32x5x2048 : S32x1x2048.Broadcasts S32x5x2048
  concatenates_S32x5x2048_S32x11x2048_S32x16x2048_d1 : Shape.Concatenates [S32x5x2048, S32x11x2048] S32x16x2048 1
  slices_S32x16x2048_o0_0_0_S32x4x2048 : S32x16x2048.Slices ![0, 0, 0] S32x4x2048
  slices_S32x16x2048_o0_4_0_S32x12x2048 : S32x16x2048.Slices ![0, 4, 0] S32x12x2048
  slices_S32x4x2048_o0_3_0_S32x1x2048 : S32x4x2048.Slices ![0, 3, 0] S32x1x2048
  slices_S32x4x2048_o0_2_0_S32x1x2048 : S32x4x2048.Slices ![0, 2, 0] S32x1x2048
  slices_S32x4x2048_o0_1_0_S32x1x2048 : S32x4x2048.Slices ![0, 1, 0] S32x1x2048
  concatenates_S32x1x2048_S32x1x2048_S32x1x2048_S32x1x2048_S32x4x2048_d1 : Shape.Concatenates [S32x1x2048, S32x1x2048, S32x1x2048, S32x1x2048] S32x4x2048 1
  broadcasts_S32x1x2048_S32x4x2048 : S32x1x2048.Broadcasts S32x4x2048
  concatenates_S32x4x2048_S32x12x2048_S32x16x2048_d1 : Shape.Concatenates [S32x4x2048, S32x12x2048] S32x16x2048 1
  slices_S32x16x2048_o0_0_0_S32x3x2048 : S32x16x2048.Slices ![0, 0, 0] S32x3x2048
  slices_S32x16x2048_o0_3_0_S32x13x2048 : S32x16x2048.Slices ![0, 3, 0] S32x13x2048
  slices_S32x3x2048_o0_2_0_S32x1x2048 : S32x3x2048.Slices ![0, 2, 0] S32x1x2048
  slices_S32x3x2048_o0_1_0_S32x1x2048 : S32x3x2048.Slices ![0, 1, 0] S32x1x2048
  concatenates_S32x1x2048_S32x1x2048_S32x1x2048_S32x3x2048_d1 : Shape.Concatenates [S32x1x2048, S32x1x2048, S32x1x2048] S32x3x2048 1
  broadcasts_S32x1x2048_S32x3x2048 : S32x1x2048.Broadcasts S32x3x2048
  concatenates_S32x3x2048_S32x13x2048_S32x16x2048_d1 : Shape.Concatenates [S32x3x2048, S32x13x2048] S32x16x2048 1
  slices_S32x16x2048_o0_0_0_S32x2x2048 : S32x16x2048.Slices ![0, 0, 0] S32x2x2048
  slices_S32x16x2048_o0_2_0_S32x14x2048 : S32x16x2048.Slices ![0, 2, 0] S32x14x2048
  slices_S32x2x2048_o0_1_0_S32x1x2048 : S32x2x2048.Slices ![0, 1, 0] S32x1x2048
  concatenates_S32x1x2048_S32x1x2048_S32x2x2048_d1 : Shape.Concatenates [S32x1x2048, S32x1x2048] S32x2x2048 1
  broadcasts_S32x1x2048_S32x2x2048 : S32x1x2048.Broadcasts S32x2x2048
  concatenates_S32x2x2048_S32x14x2048_S32x16x2048_d1 : Shape.Concatenates [S32x2x2048, S32x14x2048] S32x16x2048 1
  slices_S32x16x2048_o0_0_0_S32x1x2048 : S32x16x2048.Slices ![0, 0, 0] S32x1x2048
  slices_S32x16x2048_o0_1_0_S32x15x2048 : S32x16x2048.Slices ![0, 1, 0] S32x15x2048
  concatenates_S32x1x2048_S32x15x2048_S32x16x2048_d1 : Shape.Concatenates [S32x1x2048, S32x15x2048] S32x16x2048 1
  transposes_S64x16x32768_S64x32768x16_0_2_1 : S64x16x32768.Transposes [0, 2, 1] S64x32768x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16x2048.size a ≤ S64x16x32768.size a
  hwx0_0 : ∀ i : grid0.Coords, EltTy.bits .f32 = 32 ∨ (Rect.block (s := S64x16x32768) S32x16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16x2048.size a ≤ S64x16x32768.size a
  hwx0_1 : ∀ i : grid0.Coords, EltTy.bits .f32 = 32 ∨ (Rect.block (s := S64x16x32768) S32x16x2048.size (cc0_transform_1 i) (hinb0_1 i)).WholeWords (EltTy.packing .f32)

variable [Facts₀]

abbrev win0_0 : Pipeline.Window sig grid0 :=
  Pipeline.Window.ofSpec (Memref.whole main_v0) S32x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x16x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x32768x16 : Shape := ⟨3, ![64, 32768, 16]⟩
abbrev S64x32768x15 : Shape := ⟨3, ![64, 32768, 15]⟩
abbrev S64x32768x1 : Shape := ⟨3, ![64, 32768, 1]⟩
abbrev S_ : Shape := ⟨0, ![]⟩
abbrev S64x32768x14 : Shape := ⟨3, ![64, 32768, 14]⟩
abbrev S64x32768x2 : Shape := ⟨3, ![64, 32768, 2]⟩
abbrev S64x32768x13 : Shape := ⟨3, ![64, 32768, 13]⟩
abbrev S64x32768x3 : Shape := ⟨3, ![64, 32768, 3]⟩
abbrev S64x32768x12 : Shape := ⟨3, ![64, 32768, 12]⟩
abbrev S64x32768x4 : Shape := ⟨3, ![64, 32768, 4]⟩
abbrev S64x32768x11 : Shape := ⟨3, ![64, 32768, 11]⟩
abbrev S64x32768x5 : Shape := ⟨3, ![64, 32768, 5]⟩
abbrev S64x32768x10 : Shape := ⟨3, ![64, 32768, 10]⟩
abbrev S64x32768x6 : Shape := ⟨3, ![64, 32768, 6]⟩
abbrev S64x32768x9 : Shape := ⟨3, ![64, 32768, 9]⟩
abbrev S64x32768x7 : Shape := ⟨3, ![64, 32768, 7]⟩
abbrev S64x32768x8 : Shape := ⟨3, ![64, 32768, 8]⟩

abbrev nBuf : Space → Nat
  | .hbm => 208
  | .vmem => 0
  | .smem => 0
  | _ => 0

abbrev hbmTy0_0 (i : Nat) : BufTy := match i % 128 with
  | 0 => ⟨S64x32768x16, .f32⟩
  | 1 => ⟨S64x32768x15, .f32⟩
  | 2 => ⟨S64x32768x1, .f32⟩
  | 3 => ⟨S64x32768x15, .f32⟩
  | 4 => ⟨S64x32768x15, .f32⟩
  | 5 => ⟨S64x32768x15, .f32⟩
  | 6 => ⟨S64x32768x15, .f32⟩
  | 7 => ⟨S64x32768x1, .f32⟩
  | 8 => ⟨S_, .f32⟩
  | 9 => ⟨S64x32768x1, .f32⟩
  | 10 => ⟨S64x32768x1, .f32⟩
  | 11 => ⟨S64x32768x15, .f32⟩
  | 12 => ⟨S64x32768x15, .f32⟩
  | 13 => ⟨S64x32768x16, .f32⟩
  | 14 => ⟨S64x32768x14, .f32⟩
  | 15 => ⟨S64x32768x2, .f32⟩
  | 16 => ⟨S64x32768x1, .f32⟩
  | 17 => ⟨S64x32768x14, .f32⟩
  | 18 => ⟨S64x32768x14, .f32⟩
  | 19 => ⟨S64x32768x14, .f32⟩
  | 20 => ⟨S64x32768x14, .f32⟩
  | 21 => ⟨S64x32768x1, .f32⟩
  | 22 => ⟨S_, .f32⟩
  | 23 => ⟨S64x32768x1, .f32⟩
  | 24 => ⟨S64x32768x1, .f32⟩
  | 25 => ⟨S64x32768x14, .f32⟩
  | 26 => ⟨S64x32768x14, .f32⟩
  | 27 => ⟨S64x32768x16, .f32⟩
  | 28 => ⟨S64x32768x13, .f32⟩
  | 29 => ⟨S64x32768x3, .f32⟩
  | 30 => ⟨S64x32768x1, .f32⟩
  | 31 => ⟨S64x32768x13, .f32⟩
  | 32 => ⟨S64x32768x13, .f32⟩
  | 33 => ⟨S64x32768x13, .f32⟩
  | 34 => ⟨S64x32768x13, .f32⟩
  | 35 => ⟨S64x32768x1, .f32⟩
  | 36 => ⟨S_, .f32⟩
  | 37 => ⟨S64x32768x1, .f32⟩
  | 38 => ⟨S64x32768x1, .f32⟩
  | 39 => ⟨S64x32768x13, .f32⟩
  | 40 => ⟨S64x32768x13, .f32⟩
  | 41 => ⟨S64x32768x16, .f32⟩
  | 42 => ⟨S64x32768x12, .f32⟩
  | 43 => ⟨S64x32768x4, .f32⟩
  | 44 => ⟨S64x32768x1, .f32⟩
  | 45 => ⟨S64x32768x12, .f32⟩
  | 46 => ⟨S64x32768x12, .f32⟩
  | 47 => ⟨S64x32768x12, .f32⟩
  | 48 => ⟨S64x32768x12, .f32⟩
  | 49 => ⟨S64x32768x1, .f32⟩
  | 50 => ⟨S_, .f32⟩
  | 51 => ⟨S64x32768x1, .f32⟩
  | 52 => ⟨S64x32768x1, .f32⟩
  | 53 => ⟨S64x32768x12, .f32⟩
  | 54 => ⟨S64x32768x12, .f32⟩
  | 55 => ⟨S64x32768x16, .f32⟩
  | 56 => ⟨S64x32768x11, .f32⟩
  | 57 => ⟨S64x32768x5, .f32⟩
  | 58 => ⟨S64x32768x1, .f32⟩
  | 59 => ⟨S64x32768x11, .f32⟩
  | 60 => ⟨S64x32768x11, .f32⟩
  | 61 => ⟨S64x32768x11, .f32⟩
  | 62 => ⟨S64x32768x11, .f32⟩
  | 63 => ⟨S64x32768x1, .f32⟩
  | 64 => ⟨S_, .f32⟩
  | 65 => ⟨S64x32768x1, .f32⟩
  | 66 => ⟨S64x32768x1, .f32⟩
  | 67 => ⟨S64x32768x11, .f32⟩
  | 68 => ⟨S64x32768x11, .f32⟩
  | 69 => ⟨S64x32768x16, .f32⟩
  | 70 => ⟨S64x32768x10, .f32⟩
  | 71 => ⟨S64x32768x6, .f32⟩
  | 72 => ⟨S64x32768x1, .f32⟩
  | 73 => ⟨S64x32768x10, .f32⟩
  | 74 => ⟨S64x32768x10, .f32⟩
  | 75 => ⟨S64x32768x10, .f32⟩
  | 76 => ⟨S64x32768x10, .f32⟩
  | 77 => ⟨S64x32768x1, .f32⟩
  | 78 => ⟨S_, .f32⟩
  | 79 => ⟨S64x32768x1, .f32⟩
  | 80 => ⟨S64x32768x1, .f32⟩
  | 81 => ⟨S64x32768x10, .f32⟩
  | 82 => ⟨S64x32768x10, .f32⟩
  | 83 => ⟨S64x32768x16, .f32⟩
  | 84 => ⟨S64x32768x9, .f32⟩
  | 85 => ⟨S64x32768x7, .f32⟩
  | 86 => ⟨S64x32768x1, .f32⟩
  | 87 => ⟨S64x32768x9, .f32⟩
  | 88 => ⟨S64x32768x9, .f32⟩
  | 89 => ⟨S64x32768x9, .f32⟩
  | 90 => ⟨S64x32768x9, .f32⟩
  | 91 => ⟨S64x32768x1, .f32⟩
  | 92 => ⟨S_, .f32⟩
  | 93 => ⟨S64x32768x1, .f32⟩
  | 94 => ⟨S64x32768x1, .f32⟩
  | 95 => ⟨S64x32768x9, .f32⟩
  | 96 => ⟨S64x32768x9, .f32⟩
  | 97 => ⟨S64x32768x16, .f32⟩
  | 98 => ⟨S64x32768x8, .f32⟩
  | 99 => ⟨S64x32768x8, .f32⟩
  | 100 => ⟨S64x32768x1, .f32⟩
  | 101 => ⟨S64x32768x8, .f32⟩
  | 102 => ⟨S64x32768x8, .f32⟩
  | 103 => ⟨S64x32768x8, .f32⟩
  | 104 => ⟨S64x32768x8, .f32⟩
  | 105 => ⟨S64x32768x1, .f32⟩
  | 106 => ⟨S_, .f32⟩
  | 107 => ⟨S64x32768x1, .f32⟩
  | 108 => ⟨S64x32768x1, .f32⟩
  | 109 => ⟨S64x32768x8, .f32⟩
  | 110 => ⟨S64x32768x8, .f32⟩
  | 111 => ⟨S64x32768x16, .f32⟩
  | 112 => ⟨S64x32768x7, .f32⟩
  | 113 => ⟨S64x32768x9, .f32⟩
  | 114 => ⟨S64x32768x1, .f32⟩
  | 115 => ⟨S64x32768x7, .f32⟩
  | 116 => ⟨S64x32768x7, .f32⟩
  | 117 => ⟨S64x32768x7, .f32⟩
  | 118 => ⟨S64x32768x7, .f32⟩
  | 119 => ⟨S64x32768x1, .f32⟩
  | 120 => ⟨S_, .f32⟩
  | 121 => ⟨S64x32768x1, .f32⟩
  | 122 => ⟨S64x32768x1, .f32⟩
  | 123 => ⟨S64x32768x7, .f32⟩
  | 124 => ⟨S64x32768x7, .f32⟩
  | 125 => ⟨S64x32768x16, .f32⟩
  | 126 => ⟨S64x32768x6, .f32⟩
  | 127 => ⟨S64x32768x10, .f32⟩
  | _ => ⟨S64x32768x16, .f32⟩

abbrev hbmTy0_1 (i : Nat) : BufTy := match i % 128 with
  | 0 => ⟨S64x32768x1, .f32⟩
  | 1 => ⟨S64x32768x6, .f32⟩
  | 2 => ⟨S64x32768x6, .f32⟩
  | 3 => ⟨S64x32768x6, .f32⟩
  | 4 => ⟨S64x32768x6, .f32⟩
  | 5 => ⟨S64x32768x1, .f32⟩
  | 6 => ⟨S_, .f32⟩
  | 7 => ⟨S64x32768x1, .f32⟩
  | 8 => ⟨S64x32768x1, .f32⟩
  | 9 => ⟨S64x32768x6, .f32⟩
  | 10 => ⟨S64x32768x6, .f32⟩
  | 11 => ⟨S64x32768x16, .f32⟩
  | 12 => ⟨S64x32768x5, .f32⟩
  | 13 => ⟨S64x32768x11, .f32⟩
  | 14 => ⟨S64x32768x1, .f32⟩
  | 15 => ⟨S64x32768x5, .f32⟩
  | 16 => ⟨S64x32768x5, .f32⟩
  | 17 => ⟨S64x32768x5, .f32⟩
  | 18 => ⟨S64x32768x5, .f32⟩
  | 19 => ⟨S64x32768x1, .f32⟩
  | 20 => ⟨S_, .f32⟩
  | 21 => ⟨S64x32768x1, .f32⟩
  | 22 => ⟨S64x32768x1, .f32⟩
  | 23 => ⟨S64x32768x5, .f32⟩
  | 24 => ⟨S64x32768x5, .f32⟩
  | 25 => ⟨S64x32768x16, .f32⟩
  | 26 => ⟨S64x32768x4, .f32⟩
  | 27 => ⟨S64x32768x12, .f32⟩
  | 28 => ⟨S64x32768x1, .f32⟩
  | 29 => ⟨S64x32768x4, .f32⟩
  | 30 => ⟨S64x32768x4, .f32⟩
  | 31 => ⟨S64x32768x4, .f32⟩
  | 32 => ⟨S64x32768x4, .f32⟩
  | 33 => ⟨S64x32768x1, .f32⟩
  | 34 => ⟨S_, .f32⟩
  | 35 => ⟨S64x32768x1, .f32⟩
  | 36 => ⟨S64x32768x1, .f32⟩
  | 37 => ⟨S64x32768x4, .f32⟩
  | 38 => ⟨S64x32768x4, .f32⟩
  | 39 => ⟨S64x32768x16, .f32⟩
  | 40 => ⟨S64x32768x3, .f32⟩
  | 41 => ⟨S64x32768x13, .f32⟩
  | 42 => ⟨S64x32768x1, .f32⟩
  | 43 => ⟨S64x32768x3, .f32⟩
  | 44 => ⟨S64x32768x3, .f32⟩
  | 45 => ⟨S64x32768x3, .f32⟩
  | 46 => ⟨S64x32768x3, .f32⟩
  | 47 => ⟨S64x32768x1, .f32⟩
  | 48 => ⟨S_, .f32⟩
  | 49 => ⟨S64x32768x1, .f32⟩
  | 50 => ⟨S64x32768x1, .f32⟩
  | 51 => ⟨S64x32768x3, .f32⟩
  | 52 => ⟨S64x32768x3, .f32⟩
  | 53 => ⟨S64x32768x16, .f32⟩
  | 54 => ⟨S64x32768x2, .f32⟩
  | 55 => ⟨S64x32768x14, .f32⟩
  | 56 => ⟨S64x32768x1, .f32⟩
  | 57 => ⟨S64x32768x2, .f32⟩
  | 58 => ⟨S64x32768x2, .f32⟩
  | 59 => ⟨S64x32768x2, .f32⟩
  | 60 => ⟨S64x32768x2, .f32⟩
  | 61 => ⟨S64x32768x1, .f32⟩
  | 62 => ⟨S_, .f32⟩
  | 63 => ⟨S64x32768x1, .f32⟩
  | 64 => ⟨S64x32768x1, .f32⟩
  | 65 => ⟨S64x32768x2, .f32⟩
  | 66 => ⟨S64x32768x2, .f32⟩
  | 67 => ⟨S64x32768x16, .f32⟩
  | 68 => ⟨S64x32768x1, .f32⟩
  | 69 => ⟨S64x32768x15, .f32⟩
  | 70 => ⟨S64x32768x1, .f32⟩
  | 71 => ⟨S64x32768x1, .f32⟩
  | 72 => ⟨S64x32768x1, .f32⟩
  | 73 => ⟨S64x32768x1, .f32⟩
  | 74 => ⟨S64x32768x1, .f32⟩
  | 75 => ⟨S_, .f32⟩
  | 76 => ⟨S64x32768x1, .f32⟩
  | 77 => ⟨S64x32768x1, .f32⟩
  | 78 => ⟨S64x32768x1, .f32⟩
  | 79 => ⟨S64x32768x16, .f32⟩
  | _ => ⟨S64x32768x16, .f32⟩

abbrev hbmTy (i : Nat) : BufTy := match i / 128 with
  | 0 => hbmTy0_0 i
  | 1 => hbmTy0_1 i
  | _ => ⟨S64x32768x16, .f32⟩

abbrev bufTy : (tb : Table) → Fin (tcTables nBuf tb) → BufTy
  | .hbm, ⟨i, _⟩ => hbmTy i
  | _, _ => ⟨S64x32768x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst_0 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst_1 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst_2 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_cst_3 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_cst_4 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_cst_5 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_cst_6 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_cst_7 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_cst_8 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_cst_9 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_cst_10 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_cst_11 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_cst_12 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_cst_13 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩

abbrev nD : Nat := 1
abbrev τ : Topo := Topo.v7x

variable {F : FTy → Type} [FloatOps F]

class Facts₀ : Prop where
  slices_S64x32768x16_S64x32768x15_0_0_0 : S64x32768x16.Slices ![0, 0, 0] S64x32768x15
  slices_S64x32768x16_S64x32768x1_0_0_15 : S64x32768x16.Slices ![0, 0, 15] S64x32768x1
  bcast_S64x32768x1_S64x32768x15_0_1_2 : S64x32768x1.BroadcastsInDim S64x32768x15 (![0, 1, 2] : Fin 3 → Fin S64x32768x15.rank)
  bcast_S_S64x32768x1 : S_.BroadcastsInDim S64x32768x1 (![] : Fin 0 → Fin S64x32768x1.rank)
  concatenates_S64x32768x15_S64x32768x1_S64x32768x16_d2 : Shape.Concatenates [S64x32768x15, S64x32768x1] S64x32768x16 2
  slices_S64x32768x16_S64x32768x14_0_0_0 : S64x32768x16.Slices ![0, 0, 0] S64x32768x14
  slices_S64x32768x16_S64x32768x2_0_0_14 : S64x32768x16.Slices ![0, 0, 14] S64x32768x2
  slices_S64x32768x2_S64x32768x1_0_0_0 : S64x32768x2.Slices ![0, 0, 0] S64x32768x1
  bcast_S64x32768x1_S64x32768x14_0_1_2 : S64x32768x1.BroadcastsInDim S64x32768x14 (![0, 1, 2] : Fin 3 → Fin S64x32768x14.rank)
  concatenates_S64x32768x14_S64x32768x2_S64x32768x16_d2 : Shape.Concatenates [S64x32768x14, S64x32768x2] S64x32768x16 2
  slices_S64x32768x16_S64x32768x13_0_0_0 : S64x32768x16.Slices ![0, 0, 0] S64x32768x13
  slices_S64x32768x16_S64x32768x3_0_0_13 : S64x32768x16.Slices ![0, 0, 13] S64x32768x3
  slices_S64x32768x3_S64x32768x1_0_0_0 : S64x32768x3.Slices ![0, 0, 0] S64x32768x1
  bcast_S64x32768x1_S64x32768x13_0_1_2 : S64x32768x1.BroadcastsInDim S64x32768x13 (![0, 1, 2] : Fin 3 → Fin S64x32768x13.rank)
  concatenates_S64x32768x13_S64x32768x3_S64x32768x16_d2 : Shape.Concatenates [S64x32768x13, S64x32768x3] S64x32768x16 2
  slices_S64x32768x16_S64x32768x12_0_0_0 : S64x32768x16.Slices ![0, 0, 0] S64x32768x12
  slices_S64x32768x16_S64x32768x4_0_0_12 : S64x32768x16.Slices ![0, 0, 12] S64x32768x4
  slices_S64x32768x4_S64x32768x1_0_0_0 : S64x32768x4.Slices ![0, 0, 0] S64x32768x1
  bcast_S64x32768x1_S64x32768x12_0_1_2 : S64x32768x1.BroadcastsInDim S64x32768x12 (![0, 1, 2] : Fin 3 → Fin S64x32768x12.rank)
  concatenates_S64x32768x12_S64x32768x4_S64x32768x16_d2 : Shape.Concatenates [S64x32768x12, S64x32768x4] S64x32768x16 2
  slices_S64x32768x16_S64x32768x11_0_0_0 : S64x32768x16.Slices ![0, 0, 0] S64x32768x11
  slices_S64x32768x16_S64x32768x5_0_0_11 : S64x32768x16.Slices ![0, 0, 11] S64x32768x5
  slices_S64x32768x5_S64x32768x1_0_0_0 : S64x32768x5.Slices ![0, 0, 0] S64x32768x1
  bcast_S64x32768x1_S64x32768x11_0_1_2 : S64x32768x1.BroadcastsInDim S64x32768x11 (![0, 1, 2] : Fin 3 → Fin S64x32768x11.rank)
  concatenates_S64x32768x11_S64x32768x5_S64x32768x16_d2 : Shape.Concatenates [S64x32768x11, S64x32768x5] S64x32768x16 2
  slices_S64x32768x16_S64x32768x10_0_0_0 : S64x32768x16.Slices ![0, 0, 0] S64x32768x10
  slices_S64x32768x16_S64x32768x6_0_0_10 : S64x32768x16.Slices ![0, 0, 10] S64x32768x6
  slices_S64x32768x6_S64x32768x1_0_0_0 : S64x32768x6.Slices ![0, 0, 0] S64x32768x1
  bcast_S64x32768x1_S64x32768x10_0_1_2 : S64x32768x1.BroadcastsInDim S64x32768x10 (![0, 1, 2] : Fin 3 → Fin S64x32768x10.rank)
  concatenates_S64x32768x10_S64x32768x6_S64x32768x16_d2 : Shape.Concatenates [S64x32768x10, S64x32768x6] S64x32768x16 2
  slices_S64x32768x16_S64x32768x9_0_0_0 : S64x32768x16.Slices ![0, 0, 0] S64x32768x9
  slices_S64x32768x16_S64x32768x7_0_0_9 : S64x32768x16.Slices ![0, 0, 9] S64x32768x7
  slices_S64x32768x7_S64x32768x1_0_0_0 : S64x32768x7.Slices ![0, 0, 0] S64x32768x1
  bcast_S64x32768x1_S64x32768x9_0_1_2 : S64x32768x1.BroadcastsInDim S64x32768x9 (![0, 1, 2] : Fin 3 → Fin S64x32768x9.rank)
  concatenates_S64x32768x9_S64x32768x7_S64x32768x16_d2 : Shape.Concatenates [S64x32768x9, S64x32768x7] S64x32768x16 2
  slices_S64x32768x16_S64x32768x8_0_0_0 : S64x32768x16.Slices ![0, 0, 0] S64x32768x8
  slices_S64x32768x16_S64x32768x8_0_0_8 : S64x32768x16.Slices ![0, 0, 8] S64x32768x8
  slices_S64x32768x8_S64x32768x1_0_0_0 : S64x32768x8.Slices ![0, 0, 0] S64x32768x1
  bcast_S64x32768x1_S64x32768x8_0_1_2 : S64x32768x1.BroadcastsInDim S64x32768x8 (![0, 1, 2] : Fin 3 → Fin S64x32768x8.rank)
  concatenates_S64x32768x8_S64x32768x8_S64x32768x16_d2 : Shape.Concatenates [S64x32768x8, S64x32768x8] S64x32768x16 2
  slices_S64x32768x16_S64x32768x7_0_0_0 : S64x32768x16.Slices ![0, 0, 0] S64x32768x7
  slices_S64x32768x16_S64x32768x9_0_0_7 : S64x32768x16.Slices ![0, 0, 7] S64x32768x9
  slices_S64x32768x9_S64x32768x1_0_0_0 : S64x32768x9.Slices ![0, 0, 0] S64x32768x1
  bcast_S64x32768x1_S64x32768x7_0_1_2 : S64x32768x1.BroadcastsInDim S64x32768x7 (![0, 1, 2] : Fin 3 → Fin S64x32768x7.rank)
  concatenates_S64x32768x7_S64x32768x9_S64x32768x16_d2 : Shape.Concatenates [S64x32768x7, S64x32768x9] S64x32768x16 2
  slices_S64x32768x16_S64x32768x6_0_0_0 : S64x32768x16.Slices ![0, 0, 0] S64x32768x6
  slices_S64x32768x16_S64x32768x10_0_0_6 : S64x32768x16.Slices ![0, 0, 6] S64x32768x10
  slices_S64x32768x10_S64x32768x1_0_0_0 : S64x32768x10.Slices ![0, 0, 0] S64x32768x1
  bcast_S64x32768x1_S64x32768x6_0_1_2 : S64x32768x1.BroadcastsInDim S64x32768x6 (![0, 1, 2] : Fin 3 → Fin S64x32768x6.rank)
  concatenates_S64x32768x6_S64x32768x10_S64x32768x16_d2 : Shape.Concatenates [S64x32768x6, S64x32768x10] S64x32768x16 2
  slices_S64x32768x16_S64x32768x5_0_0_0 : S64x32768x16.Slices ![0, 0, 0] S64x32768x5
  slices_S64x32768x16_S64x32768x11_0_0_5 : S64x32768x16.Slices ![0, 0, 5] S64x32768x11
  slices_S64x32768x11_S64x32768x1_0_0_0 : S64x32768x11.Slices ![0, 0, 0] S64x32768x1
  bcast_S64x32768x1_S64x32768x5_0_1_2 : S64x32768x1.BroadcastsInDim S64x32768x5 (![0, 1, 2] : Fin 3 → Fin S64x32768x5.rank)
  concatenates_S64x32768x5_S64x32768x11_S64x32768x16_d2 : Shape.Concatenates [S64x32768x5, S64x32768x11] S64x32768x16 2
  slices_S64x32768x16_S64x32768x4_0_0_0 : S64x32768x16.Slices ![0, 0, 0] S64x32768x4
  slices_S64x32768x16_S64x32768x12_0_0_4 : S64x32768x16.Slices ![0, 0, 4] S64x32768x12
  slices_S64x32768x12_S64x32768x1_0_0_0 : S64x32768x12.Slices ![0, 0, 0] S64x32768x1
  bcast_S64x32768x1_S64x32768x4_0_1_2 : S64x32768x1.BroadcastsInDim S64x32768x4 (![0, 1, 2] : Fin 3 → Fin S64x32768x4.rank)
  concatenates_S64x32768x4_S64x32768x12_S64x32768x16_d2 : Shape.Concatenates [S64x32768x4, S64x32768x12] S64x32768x16 2
  slices_S64x32768x16_S64x32768x3_0_0_0 : S64x32768x16.Slices ![0, 0, 0] S64x32768x3
  slices_S64x32768x16_S64x32768x13_0_0_3 : S64x32768x16.Slices ![0, 0, 3] S64x32768x13
  slices_S64x32768x13_S64x32768x1_0_0_0 : S64x32768x13.Slices ![0, 0, 0] S64x32768x1
  bcast_S64x32768x1_S64x32768x3_0_1_2 : S64x32768x1.BroadcastsInDim S64x32768x3 (![0, 1, 2] : Fin 3 → Fin S64x32768x3.rank)
  concatenates_S64x32768x3_S64x32768x13_S64x32768x16_d2 : Shape.Concatenates [S64x32768x3, S64x32768x13] S64x32768x16 2
  slices_S64x32768x16_S64x32768x2_0_0_0 : S64x32768x16.Slices ![0, 0, 0] S64x32768x2
  slices_S64x32768x16_S64x32768x14_0_0_2 : S64x32768x16.Slices ![0, 0, 2] S64x32768x14
  slices_S64x32768x14_S64x32768x1_0_0_0 : S64x32768x14.Slices ![0, 0, 0] S64x32768x1
  bcast_S64x32768x1_S64x32768x2_0_1_2 : S64x32768x1.BroadcastsInDim S64x32768x2 (![0, 1, 2] : Fin 3 → Fin S64x32768x2.rank)
  concatenates_S64x32768x2_S64x32768x14_S64x32768x16_d2 : Shape.Concatenates [S64x32768x2, S64x32768x14] S64x32768x16 2
  slices_S64x32768x16_S64x32768x1_0_0_0 : S64x32768x16.Slices ![0, 0, 0] S64x32768x1
  slices_S64x32768x16_S64x32768x15_0_0_1 : S64x32768x16.Slices ![0, 0, 1] S64x32768x15
  slices_S64x32768x15_S64x32768x1_0_0_0 : S64x32768x15.Slices ![0, 0, 0] S64x32768x1
  concatenates_S64x32768x1_S64x32768x15_S64x32768x16_d2 : Shape.Concatenates [S64x32768x1, S64x32768x15] S64x32768x16 2

variable [Facts₀]

class Facts : Prop extends Facts₀ where

variable [Facts]
-- ==== Proof.StepDown.lean ====
/-
  The step-down recursion on a vector of sixteen coefficients, as a function on extended reals.

  One step with split point `w` (1 ≤ w ≤ 15) takes the coefficient at position `w` as the reflection
  coefficient `κ = x w`, replaces each of the first `w` entries by

      (x k − κ · x (w − 1 − k)) / (1 − κ · κ)          (0 ≤ k < w)

  and keeps every entry from position `w` on.  Fifteen steps, `w = 15, 14, …, 1`, turn predictor
  coefficients into reflection coefficients.  Both programs of this certificate compute exactly this, entry by entry,
  with the same operations in the same order, so the specification is stated with the ideal instance's own
  subtraction, product and quotient (no algebraic law, and no finiteness, is needed to join them).

  The result of a whole `[A, B, 16]` array is the recursion applied to each length-16 fibre along the last axis.
-/
import Idealize.ShloMosaic.PureOps.Ideal
import Idealize.ShloMosaic.Lib.ValueIdx

noncomputable section

namespace Cert.StepDown

open Idealize.ShloMosaic Idealize.ShloMosaic.ValueIdx

/-- The number one as both programs spell it: the binary32 word of `1.0` read at the ideal instance. It is never
    evaluated: the same word stands on both sides. -/
def one : EReal := Ideal.ofBits .f32 0x3F800000#32

/-- One step of the recursion with split point `w`: entries below `w` are updated with the reflection coefficient
    `x w` and the mirrored entry `x (w − 1 − k)`, entries from `w` on are kept. -/
def step (w : ℕ) (hw : w < 16) (x : Fin 16 → EReal) : Fin 16 → EReal := fun k =>
  if hk : k.val < w then
    Ideal.div (x k - x ⟨w, hw⟩ * x ⟨w - 1 - k.val, by omega⟩) (one - x ⟨w, hw⟩ * x ⟨w, hw⟩)
  else x k

/-- The fifteen steps, split points 15 down to 1. -/
def lev (x : Fin 16 → EReal) : Fin 16 → EReal :=
  step 1 (by decide) (step 2 (by decide) (step 3 (by decide) (step 4 (by decide) (step 5 (by decide)
    (step 6 (by decide) (step 7 (by decide) (step 8 (by decide) (step 9 (by decide) (step 10 (by decide)
    (step 11 (by decide) (step 12 (by decide) (step 13 (by decide) (step 14 (by decide)
    (step 15 (by decide) x))))))))))))))

/-- The recursion applied to every fibre along the last axis of an `[A, B, 16]` array. -/
def G {A B : ℕ} (X : (⟨3, ![A, B, 16]⟩ : Shape).Idx → EReal) : (⟨3, ![A, B, 16]⟩ : Shape).Idx → EReal :=
  fun i => lev (fun k => X (ix3 (i 0) (i 1) k)) (i 2)

/-- `G` read at an index given by its coordinates. -/
theorem G_apply {A B : ℕ} (X : (⟨3, ![A, B, 16]⟩ : Shape).Idx → EReal) (a : Fin A) (b : Fin B) (k : Fin 16) :
    G X (ix3 a b k) = lev (fun k' => X (ix3 a b k')) k := rfl

end Cert.StepDown

end
-- ==== Proof.KernelStep.lean ====
/-
  One step of the recursion as the kernel spells it, for arrays `[A, 16, B]` with the coefficients along axis 1,
  generic in the block extents `A`, `B` and in the split point `w` (with `r = 16 − w` the kept entries):

    * the leading `w` rows `As`, the kept `r` rows `Bt`, the reflection coefficient's row `κ` (the first kept row),
    * the leading rows mirrored, spelled as the concatenation of the `w` single rows taken last first,
    * `(As − κ · mirrored) / (1 − κ · κ)` laid in front of `Bt`.

  Read along a fibre `(a, ·, b)` this is `Cert.StepDown.step w` of the operand's fibre.
-/
import proofs.«102968_j52664888984120_1_alg».proof.Proof.StepDown
import Idealize.ShloMosaic.PureOps
import Idealize.ShloMosaic.Lib.ValueIdx
import Idealize.ShloMosaic.Lib.ValueLayout
import Idealize.ShloMosaic.Lib.Pipeline.Value

noncomputable section

namespace Cert.KernelStep

open Idealize.ShloMosaic Idealize.ShloMosaic.ValueIdx Cert.StepDown

variable {F : FTy → Type} [FloatOps F]

/-- The shape `[A, n, B]`. -/
abbrev Sk (A n B : ℕ) : Shape := ⟨3, ![A, n, B]⟩

/-- The `w` single rows of an `[A, w, B]` array, last row first. -/
abbrev rowsRev (A w B : ℕ) (X : FVec F (Sk A w B) .f32)
    (hs : ∀ n : Fin w, (Sk A w B).Slices ![0, w - 1 - n.val, 0] (Sk A 1 B)) :
    List ((s : Shape) × (s.Idx → F .f32)) :=
  List.ofFn fun n : Fin w => (⟨Sk A 1 B, extractStridedSlice (Sk A 1 B) ![0, w - 1 - n.val, 0] X (hs n)⟩ : (s : Shape) × (s.Idx → F .f32))

/-- Their shapes: `w` copies of `[A, 1, B]`. -/
theorem rowsRev_shapes (A w B : ℕ) (X : FVec F (Sk A w B) .f32)
    (hs : ∀ n : Fin w, (Sk A w B).Slices ![0, w - 1 - n.val, 0] (Sk A 1 B)) :
    (rowsRev A w B X hs).map (·.1) = List.replicate w (Sk A 1 B) := by
  simp [rowsRev, List.map_ofFn, Function.comp_def, List.ofFn_const]

/-- An `[A, w, B]` array mirrored along axis 1, as the concatenation of its single rows taken last first. -/
def mirror (A w B : ℕ) (X : FVec F (Sk A w B) .f32)
    (hs : ∀ n : Fin w, (Sk A w B).Slices ![0, w - 1 - n.val, 0] (Sk A 1 B) := by decide)
    (hc : Shape.Concatenates (List.replicate w (Sk A 1 B)) (Sk A w B) 1 := by decide) : FVec F (Sk A w B) .f32 :=
  concatenate (Sk A w B) 1 (rowsRev A w B X hs) (by rw [rowsRev_shapes]; exact hc)

/-- The updated leading rows in front of the kept rows. -/
def assemble (A w r B : ℕ) (As : FVec F (Sk A w B) .f32) (Bt : FVec F (Sk A r B) .f32) (ki : FVec F (Sk A 1 B) .f32)
    (rev : FVec F (Sk A w B) .f32) (hb : (Sk A 1 B).Broadcasts (Sk A w B) := by decide)
    (hc : Shape.Concatenates [Sk A w B, Sk A r B] (Sk A 16 B) 1 := by decide) : FVec F (Sk A 16 B) .f32 :=
  concatenate (Sk A 16 B) 1
    [⟨Sk A w B, divf (subf As (mulf (broadcastTo (Sk A w B) ki hb) rev))
        (broadcastTo (Sk A w B) (subf (broadcast (Sk A 1 B) (Scalar.ofBits .f32 0x3F800000#32)) (mulf ki ki)) hb)⟩,
     ⟨Sk A r B, Bt⟩] hc

/-- The first step as the kernel spells it (split point 15): the reflection coefficient's row is the one kept row. -/
def first (A B : ℕ) (X : FVec F (Sk A 16 B) .f32)
    (hA : (Sk A 16 B).Slices ![0, 0, 0] (Sk A 15 B) := by decide)
    (hB : (Sk A 16 B).Slices ![0, 15, 0] (Sk A 1 B) := by decide)
    (hs : ∀ n : Fin 15, (Sk A 15 B).Slices ![0, 15 - 1 - n.val, 0] (Sk A 1 B) := by decide)
    (hcr : Shape.Concatenates (List.replicate 15 (Sk A 1 B)) (Sk A 15 B) 1 := by decide)
    (hb : (Sk A 1 B).Broadcasts (Sk A 15 B) := by decide)
    (hc : Shape.Concatenates [Sk A 15 B, Sk A 1 B] (Sk A 16 B) 1 := by decide) : FVec F (Sk A 16 B) .f32 :=
  assemble A 15 1 B (extractStridedSlice (Sk A 15 B) ![0, 0, 0] X hA) (extractStridedSlice (Sk A 1 B) ![0, 15, 0] X hB)
    (extractStridedSlice (Sk A 1 B) ![0, 15, 0] X hB)
    (mirror A 15 B (extractStridedSlice (Sk A 15 B) ![0, 0, 0] X hA) hs hcr) hb hc

/-- A middle step (split point `w`, 2 ≤ w ≤ 14, `r = 16 − w` rows kept): the reflection coefficient's row is the first
    of the kept rows. -/
def mid (A w r B : ℕ) (X : FVec F (Sk A 16 B) .f32)
    (hA : (Sk A 16 B).Slices ![0, 0, 0] (Sk A w B) := by decide)
    (hB : (Sk A 16 B).Slices ![0, w, 0] (Sk A r B) := by decide)
    (hk : (Sk A r B).Slices ![0, 0, 0] (Sk A 1 B) := by decide)
    (hs : ∀ n : Fin w, (Sk A w B).Slices ![0, w - 1 - n.val, 0] (Sk A 1 B) := by decide)
    (hcr : Shape.Concatenates (List.replicate w (Sk A 1 B)) (Sk A w B) 1 := by decide)
    (hb : (Sk A 1 B).Broadcasts (Sk A w B) := by decide)
    (hc : Shape.Concatenates [Sk A w B, Sk A r B] (Sk A 16 B) 1 := by decide) : FVec F (Sk A 16 B) .f32 :=
  assemble A w r B (extractStridedSlice (Sk A w B) ![0, 0, 0] X hA) (extractStridedSlice (Sk A r B) ![0, w, 0] X hB)
    (extractStridedSlice (Sk A 1 B) ![0, 0, 0] (extractStridedSlice (Sk A r B) ![0, w, 0] X hB) hk)
    (mirror A w B (extractStridedSlice (Sk A w B) ![0, 0, 0] X hA) hs hcr) hb hc

/-- The last step (split point 1): one row to update, its mirror image is itself and nothing is broadcast. -/
def last (A B : ℕ) (X : FVec F (Sk A 16 B) .f32)
    (hA : (Sk A 16 B).Slices ![0, 0, 0] (Sk A 1 B) := by decide)
    (hB : (Sk A 16 B).Slices ![0, 1, 0] (Sk A 15 B) := by decide)
    (hk : (Sk A 15 B).Slices ![0, 0, 0] (Sk A 1 B) := by decide)
    (hc : Shape.Concatenates [Sk A 1 B, Sk A 15 B] (Sk A 16 B) 1 := by decide) : FVec F (Sk A 16 B) .f32 :=
  concatenate (Sk A 16 B) 1
    [⟨Sk A 1 B, divf (subf (extractStridedSlice (Sk A 1 B) ![0, 0, 0] X hA)
        (mulf (extractStridedSlice (Sk A 1 B) ![0, 0, 0] (extractStridedSlice (Sk A 15 B) ![0, 1, 0] X hB) hk)
          (extractStridedSlice (Sk A 1 B) ![0, 0, 0] X hA)))
        (subf (broadcast (Sk A 1 B) (Scalar.ofBits .f32 0x3F800000#32))
          (mulf (extractStridedSlice (Sk A 1 B) ![0, 0, 0] (extractStridedSlice (Sk A 15 B) ![0, 1, 0] X hB) hk)
            (extractStridedSlice (Sk A 1 B) ![0, 0, 0] (extractStridedSlice (Sk A 15 B) ![0, 1, 0] X hB) hk)))⟩,
     ⟨Sk A 15 B, extractStridedSlice (Sk A 15 B) ![0, 1, 0] X hB⟩] hc

end Cert.KernelStep

end
-- ==== Proof.KernelStepRead.lean ====
/-
  The kernel's spelling of one step read along a fibre `(a, ·, b)`: it is the specification's step of the operand's fibre.
-/
import proofs.«102968_j52664888984120_1_alg».proof.Proof.KernelStep

noncomputable section

namespace Cert.KernelStep

open Idealize.ShloMosaic Idealize.ShloMosaic.ValueIdx Cert.StepDown

variable {α : Type}

/-- A one-row array broadcast along axis 1 reads its one row everywhere. -/
theorem bcastRow_apply (A w B : ℕ) (v : (Sk A 1 B).Idx → α) (h : (Sk A 1 B).Broadcasts (Sk A w B))
    (a : Fin A) (k : Fin w) (b : Fin B) :
    broadcastTo (Sk A w B) v h (ix3 a k b) = v (ix3 a (0 : Fin 1) b) :=
  broadcastTo_apply v h (ix3 a k b) (ix3 a (0 : Fin 1) b) fun ax => by
    match ax with
    | ⟨0, _⟩ =>
      show a.val = if A = 1 then 0 else a.val
      split_ifs with h1
      · subst h1; exact Fin.val_eq_zero a
      · rfl
    | ⟨1, _⟩ => exact (if_pos rfl).symm
    | ⟨2, _⟩ =>
      show b.val = if B = 1 then 0 else b.val
      split_ifs with h1
      · subst h1; exact Fin.val_eq_zero b
      · rfl

/-- The mirrored array at row `k` is the operand at row `w − 1 − k`. -/
theorem mirror_apply (A w B : ℕ) (X : FVec Ideal (Sk A w B) .f32)
    (hs : ∀ n : Fin w, (Sk A w B).Slices ![0, w - 1 - n.val, 0] (Sk A 1 B))
    (hc : Shape.Concatenates (List.replicate w (Sk A 1 B)) (Sk A w B) 1) (a : Fin A) (k : Fin w) (b : Fin B) :
    mirror A w B X hs hc (ix3 a k b) = X (ix3 a ⟨w - 1 - k.val, by have := k.isLt; omega⟩ b) := by
  unfold mirror rowsRev
  rw [concatenate_ofFn_unit_apply (1 : Fin (Sk A w B).rank)
    (fun n : Fin w => extractStridedSlice (Sk A 1 B) ![0, w - 1 - n.val, 0] X (hs n)) _ rfl rfl (ix3 a k b) k rfl
    (ix3 a (0 : Fin 1) b) (fun ax hax => by
      match ax with
      | ⟨0, _⟩ => rfl
      | ⟨1, _⟩ => exact absurd rfl hax
      | ⟨2, _⟩ => rfl)]
  exact slice3_axis1_apply (w - 1 - k.val) X (hs k) a 0 b _ (by simp)

/-- The updated rows in front of the kept rows, read along the fibre `(a, ·, b)`: if along that fibre the leading rows,
    the kept rows, the reflection coefficient's row and the mirrored rows read `x` where the step reads it, the
    assembled array reads the specification's step of `x`. -/
theorem assemble_apply (A w r B : ℕ) (hw : w < 16) (hwr : w + r = 16)
    (As : FVec Ideal (Sk A w B) .f32) (Bt : FVec Ideal (Sk A r B) .f32) (ki : FVec Ideal (Sk A 1 B) .f32)
    (rev : FVec Ideal (Sk A w B) .f32) (hb : (Sk A 1 B).Broadcasts (Sk A w B))
    (hc : Shape.Concatenates [Sk A w B, Sk A r B] (Sk A 16 B) 1)
    (x : Fin 16 → EReal) (a : Fin A) (b : Fin B)
    (hAs : ∀ k : Fin w, As (ix3 a k b) = x ⟨k.val, by have := k.isLt; omega⟩)
    (hBt : ∀ k : Fin r, Bt (ix3 a k b) = x ⟨w + k.val, by have := k.isLt; omega⟩)
    (hki : ki (ix3 a (0 : Fin 1) b) = x ⟨w, hw⟩)
    (hrev : ∀ k : Fin w, rev (ix3 a k b) = x ⟨w - 1 - k.val, by have := k.isLt; omega⟩) (k : Fin 16) :
    assemble A w r B As Bt ki rev hb hc (ix3 a k b) = step w hw x k := by
  unfold assemble step
  by_cases hk : k.val < w
  · rw [dif_pos hk]
    rw [concatenate_pair_apply_left (1 : Fin (Sk A 16 B).rank) _ _ hc (ix3 a k b) rfl (ix3 a ⟨k.val, hk⟩ b)
      (fun ax => by match ax with | ⟨0, _⟩ => rfl | ⟨1, _⟩ => rfl | ⟨2, _⟩ => rfl)]
    rw [divf_apply, subf_apply, mulf_apply, bcastRow_apply, bcastRow_apply, subf_apply, mulf_apply, broadcast_apply,
      hAs, hki, hrev]
    rfl
  · rw [dif_neg hk]
    rw [concatenate_pair_apply_right (1 : Fin (Sk A 16 B).rank) _ _ hc (ix3 a k b) rfl rfl
      (ix3 a ⟨k.val - w, by have := k.isLt; omega⟩ b)
      (fun ax hax => by match ax with | ⟨0, _⟩ => rfl | ⟨1, _⟩ => exact absurd rfl hax | ⟨2, _⟩ => rfl)
      (by show (k.val - w) + w = k.val; omega)]
    rw [hBt]
    exact congrArg x (Fin.ext (by show w + (k.val - w) = k.val; omega))

/-- The first step read along a fibre. -/
theorem first_apply (A B : ℕ) (X : FVec Ideal (Sk A 16 B) .f32)
    (hA : (Sk A 16 B).Slices ![0, 0, 0] (Sk A 15 B)) (hB : (Sk A 16 B).Slices ![0, 15, 0] (Sk A 1 B))
    (hs : ∀ n : Fin 15, (Sk A 15 B).Slices ![0, 15 - 1 - n.val, 0] (Sk A 1 B))
    (hcr : Shape.Concatenates (List.replicate 15 (Sk A 1 B)) (Sk A 15 B) 1)
    (hb : (Sk A 1 B).Broadcasts (Sk A 15 B)) (hc : Shape.Concatenates [Sk A 15 B, Sk A 1 B] (Sk A 16 B) 1)
    (a : Fin A) (k : Fin 16) (b : Fin B) :
    first A B X hA hB hs hcr hb hc (ix3 a k b) = step 15 (by decide) (fun k' => X (ix3 a k' b)) k := by
  unfold first
  exact assemble_apply A 15 1 B (by decide) rfl _ _ _ _ hb hc (fun k' => X (ix3 a k' b)) a b
    (fun j => slice3_axis1_apply 0 X hA a j b ⟨j.val, by have := j.isLt; omega⟩ (by simp))
    (fun j => slice3_axis1_apply 15 X hB a j b ⟨15 + j.val, by have := j.isLt; omega⟩ rfl)
    (slice3_axis1_apply 15 X hB a 0 b ⟨15, by decide⟩ rfl)
    (fun j => (mirror_apply A 15 B _ hs hcr a j b).trans
      (slice3_axis1_apply 0 X hA a _ b ⟨15 - 1 - j.val, by have := j.isLt; omega⟩ (by simp))) k

/-- A middle step read along a fibre. -/
theorem mid_apply (A w r B : ℕ) (hw : w < 16) (hwr : w + r = 16) (X : FVec Ideal (Sk A 16 B) .f32)
    (hA : (Sk A 16 B).Slices ![0, 0, 0] (Sk A w B)) (hB : (Sk A 16 B).Slices ![0, w, 0] (Sk A r B))
    (hk : (Sk A r B).Slices ![0, 0, 0] (Sk A 1 B))
    (hs : ∀ n : Fin w, (Sk A w B).Slices ![0, w - 1 - n.val, 0] (Sk A 1 B))
    (hcr : Shape.Concatenates (List.replicate w (Sk A 1 B)) (Sk A w B) 1)
    (hb : (Sk A 1 B).Broadcasts (Sk A w B)) (hc : Shape.Concatenates [Sk A w B, Sk A r B] (Sk A 16 B) 1)
    (a : Fin A) (k : Fin 16) (b : Fin B) :
    mid A w r B X hA hB hk hs hcr hb hc (ix3 a k b) = step w hw (fun k' => X (ix3 a k' b)) k := by
  unfold mid
  exact assemble_apply A w r B hw hwr _ _ _ _ hb hc (fun k' => X (ix3 a k' b)) a b
    (fun j => slice3_axis1_apply 0 X hA a j b ⟨j.val, by have := j.isLt; omega⟩ (by simp))
    (fun j => slice3_axis1_apply w X hB a j b ⟨w + j.val, by have := j.isLt; omega⟩ rfl)
    ((slice3_axis1_apply 0 _ hk a 0 b ⟨0, by omega⟩ rfl).trans
      (slice3_axis1_apply w X hB a ⟨0, by omega⟩ b ⟨w, hw⟩ rfl))
    (fun j => (mirror_apply A w B _ hs hcr a j b).trans
      (slice3_axis1_apply 0 X hA a _ b ⟨w - 1 - j.val, by have := j.isLt; omega⟩ (by simp))) k

/-- The last step read along a fibre. -/
theorem last_apply (A B : ℕ) (X : FVec Ideal (Sk A 16 B) .f32)
    (hA : (Sk A 16 B).Slices ![0, 0, 0] (Sk A 1 B)) (hB : (Sk A 16 B).Slices ![0, 1, 0] (Sk A 15 B))
    (hk : (Sk A 15 B).Slices ![0, 0, 0] (Sk A 1 B))
    (hc : Shape.Concatenates [Sk A 1 B, Sk A 15 B] (Sk A 16 B) 1) (a : Fin A) (k : Fin 16) (b : Fin B) :
    last A B X hA hB hk hc (ix3 a k b) = step 1 (by decide) (fun k' => X (ix3 a k' b)) k := by
  unfold last step
  have eA : extractStridedSlice (Sk A 1 B) ![0, 0, 0] X hA (ix3 a (0 : Fin 1) b) = X (ix3 a 0 b) :=
    slice3_axis1_apply 0 X hA a 0 b 0 rfl
  have eK : extractStridedSlice (Sk A 1 B) ![0, 0, 0] (extractStridedSlice (Sk A 15 B) ![0, 1, 0] X hB) hk
      (ix3 a (0 : Fin 1) b) = X (ix3 a 1 b) :=
    (slice3_axis1_apply 0 _ hk a 0 b 0 rfl).trans (slice3_axis1_apply 1 X hB a 0 b 1 rfl)
  by_cases hk1 : k.val < 1
  · rw [dif_pos hk1]
    have hk0 : k = 0 := Fin.ext (by omega)
    subst hk0
    rw [concatenate_pair_apply_left (1 : Fin (Sk A 16 B).rank) _ _ hc (ix3 a 0 b) rfl (ix3 a (0 : Fin 1) b)
      (fun ax => by match ax with | ⟨0, _⟩ => rfl | ⟨1, _⟩ => rfl | ⟨2, _⟩ => rfl)]
    rw [divf_apply, subf_apply, mulf_apply, subf_apply, mulf_apply, broadcast_apply, eA, eK]
    rfl
  · rw [dif_neg hk1]
    rw [concatenate_pair_apply_right (1 : Fin (Sk A 16 B).rank) _ _ hc (ix3 a k b) rfl rfl
      (ix3 a ⟨k.val - 1, by have := k.isLt; omega⟩ b)
      (fun ax hax => by match ax with | ⟨0, _⟩ => rfl | ⟨1, _⟩ => exact absurd rfl hax | ⟨2, _⟩ => rfl)
      (by show (k.val - 1) + 1 = k.val; omega)]
    exact slice3_axis1_apply 1 X hB a _ b k (by show k.val = 1 + (k.val - 1); omega)

/-! ## The same, fibre by fibre -/

/-- The fibre `(a, ·, b)` of an `[A, 16, B]` array. -/
def fibre {A B : ℕ} (Y : (Sk A 16 B).Idx → EReal) (a : Fin A) (b : Fin B) : Fin 16 → EReal := fun k => Y (ix3 a k b)

theorem fibre_first (A B : ℕ) (X : FVec Ideal (Sk A 16 B) .f32)
    (hA : (Sk A 16 B).Slices ![0, 0, 0] (Sk A 15 B)) (hB : (Sk A 16 B).Slices ![0, 15, 0] (Sk A 1 B))
    (hs : ∀ n : Fin 15, (Sk A 15 B).Slices ![0, 15 - 1 - n.val, 0] (Sk A 1 B))
    (hcr : Shape.Concatenates (List.replicate 15 (Sk A 1 B)) (Sk A 15 B) 1)
    (hb : (Sk A 1 B).Broadcasts (Sk A 15 B)) (hc : Shape.Concatenates [Sk A 15 B, Sk A 1 B] (Sk A 16 B) 1)
    (a : Fin A) (b : Fin B) :
    fibre (first A B X hA hB hs hcr hb hc) a b = step 15 (by decide) (fibre X a b) :=
  funext fun k => first_apply A B X hA hB hs hcr hb hc a k b

theorem fibre_mid (A w r B : ℕ) (hw : w < 16) (hwr : w + r = 16) (X : FVec Ideal (Sk A 16 B) .f32)
    (hA : (Sk A 16 B).Slices ![0, 0, 0] (Sk A w B)) (hB : (Sk A 16 B).Slices ![0, w, 0] (Sk A r B))
    (hk : (Sk A r B).Slices ![0, 0, 0] (Sk A 1 B))
    (hs : ∀ n : Fin w, (Sk A w B).Slices ![0, w - 1 - n.val, 0] (Sk A 1 B))
    (hcr : Shape.Concatenates (List.replicate w (Sk A 1 B)) (Sk A w B) 1)
    (hb : (Sk A 1 B).Broadcasts (Sk A w B)) (hc : Shape.Concatenates [Sk A w B, Sk A r B] (Sk A 16 B) 1)
    (a : Fin A) (b : Fin B) :
    fibre (mid A w r B X hA hB hk hs hcr hb hc) a b = step w hw (fibre X a b) :=
  funext fun k => mid_apply A w r B hw hwr X hA hB hk hs hcr hb hc a k b

theorem fibre_last (A B : ℕ) (X : FVec Ideal (Sk A 16 B) .f32)
    (hA : (Sk A 16 B).Slices ![0, 0, 0] (Sk A 1 B)) (hB : (Sk A 16 B).Slices ![0, 1, 0] (Sk A 15 B))
    (hk : (Sk A 15 B).Slices ![0, 0, 0] (Sk A 1 B))
    (hc : Shape.Concatenates [Sk A 1 B, Sk A 15 B] (Sk A 16 B) 1) (a : Fin A) (b : Fin B) :
    fibre (last A B X hA hB hk hc) a b = step 1 (by decide) (fibre X a b) :=
  funext fun k => last_apply A B X hA hB hk hc a k b

end Cert.KernelStep

end
-- ==== Proof.KernelPayload.lean ====
/-
  What the kernel body's one store holds: the fifteen steps of the recursion, applied to the input block fibre by fibre
  along axis 1.  The body's payload IS the composition of the fifteen generic steps (the same operations on the same
  operands, so the two terms are one by unfolding), and each generic step read along a fibre is the specification's step.
-/
import proofs.«102968_j52664888984120_1_alg».proof.Proof.Gen.KernelIdeal.Frame
import proofs.«102968_j52664888984120_1_alg».proof.Proof.KernelStepRead

noncomputable section

namespace Cert.KernelIdeal.Payload

open Idealize.ShloMosaic Idealize.ShloMosaic.ValueIdx Cert.KernelIdeal Cert.KernelIdeal.Gen Cert.StepDown Cert.KernelStep

/-- The zero offsets of the body's whole-buffer load and store. -/
theorem zero_off : (![0, 0, 0] : Fin 3 → Nat) = fun _ => 0 := funext fun a => by fin_cases a <;> rfl

/-- The fifteen steps in the kernel's spelling, split points 15 down to 1, on a `[32, 16, 2048]` block. -/
def steps (x : Vec Ideal S32x16x2048 .f32) : FVec Ideal S32x16x2048 .f32 :=
  last 32 2048 (mid 32 2 14 2048 (mid 32 3 13 2048 (mid 32 4 12 2048 (mid 32 5 11 2048 (mid 32 6 10 2048 (mid 32 7 9 2048 (mid 32 8 8 2048 (mid 32 9 7 2048 (mid 32 10 6 2048 (mid 32 11 5 2048 (mid 32 12 4 2048 (mid 32 13 3 2048 (mid 32 14 2 2048 (first 32 2048 (shapeCast S32x16x2048 x Gen.shapeCasts_S32x16x2048_S32x16x2048)))))))))))))))

set_option maxRecDepth 65536 in
set_option maxHeartbeats 4000000 in
/-- The body's store holds the fifteen steps of its input block: the payload's term is that composition. -/
theorem out_eq (x : Vec Ideal S32x16x2048 .f32) : out0_1 (F := Ideal) x = steps x := by
  unfold out0_1
  rw [View.canon_unit_zero zero_off]
  simp only [View.ld_unit_zero (S := S32x16x2048) zero_off]
  rfl

/-- Read at an index: the specification's recursion of the input block's fibre. -/
theorem out_apply (x : Vec Ideal S32x16x2048 .f32) (a : Fin 32) (k : Fin 16) (b : Fin 2048) :
    out0_1 (F := Ideal) x (ix3 a k b) = lev (fun k' => x (ix3 a k' b)) k := by
  have h : fibre (steps x) a b = lev (fibre x a b) := by
    unfold steps lev
    rw [fibre_last,
      fibre_mid 32 2 14 2048 (by decide) rfl,
      fibre_mid 32 3 13 2048 (by decide) rfl,
      fibre_mid 32 4 12 2048 (by decide) rfl,
      fibre_mid 32 5 11 2048 (by decide) rfl,
      fibre_mid 32 6 10 2048 (by decide) rfl,
      fibre_mid 32 7 9 2048 (by decide) rfl,
      fibre_mid 32 8 8 2048 (by decide) rfl,
      fibre_mid 32 9 7 2048 (by decide) rfl,
      fibre_mid 32 10 6 2048 (by decide) rfl,
      fibre_mid 32 11 5 2048 (by decide) rfl,
      fibre_mid 32 12 4 2048 (by decide) rfl,
      fibre_mid 32 13 3 2048 (by decide) rfl,
      fibre_mid 32 14 2 2048 (by decide) rfl,
      fibre_first, shapeCast_self]
  have hk := congrFun h k
  unfold fibre at hk
  rw [out_eq]
  exact hk

end Cert.KernelIdeal.Payload

end
-- ==== Proof.KernelArray.lean ====
/-
  From the blocks the body stores to the whole result array of the idealized kernel program.

  The program swaps the last two axes of its argument (`[64, 32768, 16]` to `[64, 16, 32768]`), runs one pipelined
  region over blocks `[32, 16, 2048]` on a 2 × 16 grid (block (i, 0, j) at grid point (i, j), for the staged array
  and for the output alike), and swaps the axes back.  Given that the body's store holds, at every index of a block,
  the step-down recursion of the block's fibre along its middle axis, the output array of the region is that
  recursion applied to every fibre along the middle axis of the staged array (`KT`), and the program's result is the
  recursion applied to every fibre along the last axis of the argument (`G`).
-/
import proofs.«102968_j52664888984120_1_alg».proof.Proof.Gen.KernelIdeal.Frame
import proofs.«102968_j52664888984120_1_alg».proof.Proof.StepDown
import Idealize.ShloMosaic.Lib.ValueIdx
import Idealize.ShloMosaic.Lib.ValueLayout
import Idealize.ShloMosaic.Lib.Pipeline.Value

noncomputable section

namespace Cert.KernelIdeal.RunValue

open Idealize.ShloMosaic Idealize.ShloMosaic.TcCoe Idealize.ShloMosaic.ValueIdx Idealize.SL.Sem
open Cert.KernelIdeal Cert.KernelIdeal.Gen Cert.StepDown

open Idealize.ShloMosaic.Pipeline (Dat)

section Array

variable (m : (ℓ : Loc nD τ sig) → Buf (Elt Ideal) ℓ)

/-- The recursion applied to every fibre along the MIDDLE axis of a `[64, 16, 32768]` array: the layout the region
    works in. -/
def KT (Y : Vec Ideal S64x16x32768 .f32) : Vec Ideal S64x16x32768 .f32 :=
  fun i => lev (fun k' => Y (ix3 (i 0) k' (i 2))) (i 1)

/-- `KT` read at an index given by its coordinates. -/
theorem KT_apply (Y : Vec Ideal S64x16x32768 .f32) (a : Fin 64) (k : Fin 16) (t : Fin 32768) :
    KT Y (ix3 a k t) = lev (fun k' => Y (ix3 a k' t)) k := rfl

/-! ## The block index maps -/

/-- The two windows move together: the same block index on the first and on the last axis, block zero on the middle
    axis (a block spans all sixteen coefficients); decided over the 32 grid points. -/
theorem idx_facts : ∀ t : Fin cfg0.N, win0_0.index t (0 : Fin 3) = win0_1.index t (0 : Fin 3)
    ∧ win0_0.index t (1 : Fin 3) = 0 ∧ win0_1.index t (1 : Fin 3) = 0
    ∧ win0_0.index t (2 : Fin 3) = win0_1.index t (2 : Fin 3)
    ∧ win0_1.index t (0 : Fin 3) ≤ 1 ∧ win0_1.index t (2 : Fin 3) ≤ 15 :=
  (by decide +kernel : ∀ t : Fin grid0.N, _)

/-- Every block of the output array, (q0, 0, q2) with q0 < 2 and q2 < 16, is some grid point's. -/
theorem idx_onto : ∀ (q0 : Fin 2) (q2 : Fin 16), ∃ t : Fin cfg0.N, win0_1.index t = ![q0.val, 0, q2.val] :=
  (by decide +kernel : ∀ (q0 : Fin 2) (q2 : Fin 16), ∃ t : Fin grid0.N, win0_1.index t = ![q0.val, 0, q2.val])

/-! ## One grid point -/

/-- The body's store at an index `j` of the block is `KT Y` at the array index `i`, when `i` has `j`'s middle
    coordinate and the block's fibre through `j` is `Y`'s fibre through `i`. -/
theorem out_at
    (hpay : ∀ (x : Vec Ideal S32x16x2048 .f32) (a : Fin 32) (k : Fin 16) (b : Fin 2048),
      out0_1 (F := Ideal) x (ix3 a k b) = lev (fun k' => x (ix3 a k' b)) k)
    (x : Vec Ideal S32x16x2048 .f32) (Y : Vec Ideal S64x16x32768 .f32)
    (j : S32x16x2048.Idx) (i : S64x16x32768.Idx) (h1 : (i 1).val = (j 1).val)
    (hx : ∀ k' : Fin 16, x (ix3 (j 0) k' (j 2)) = Y (ix3 (i 0) k' (i 2))) :
    out0_1 (F := Ideal) x j = KT Y i := by
  refine ((congrArg (out0_1 (F := Ideal) x) (eq_ix3 j)).trans (hpay x (j 0) (j 1) (j 2))).trans ?_
  show _ = lev (fun k' => Y (ix3 (i 0) k' (i 2))) (i 1)
  rw [show (fun k' : Fin 16 => x (ix3 (j 0) k' (j 2))) = fun k' => Y (ix3 (i 0) k' (i 2)) from funext hx]
  exact congrArg _ (Fin.ext h1.symm)

/-- The input window's block at point `t`, at an index `y`, is the staged array at the index whose coordinate on each
    axis is the block index times the block's extent plus `y`'s coordinate. -/
theorem iblk_read (c : Dev nD) (t : Fin cfg0.N) (y : S32x16x2048.Idx) (i : S64x16x32768.Idx)
    (h0 : (i 0).val = win0_0.index t (0 : Fin 3) * 32 + (y 0).val)
    (h1 : (i 1).val = win0_0.index t (1 : Fin 3) * 16 + (y 1).val)
    (h2 : (i 2).val = win0_0.index t (2 : Fin 3) * 2048 + (y 2).val) :
    (iblk m c 0 t : Vec Ideal S32x16x2048 .f32) y = (V m c main_v0 : Vec Ideal S64x16x32768 .f32) i := by
  unfold iblk
  rw [View.read_apply]
  show V m c main_v0 _ = V m c main_v0 _
  congr 1
  funext a
  apply Fin.ext
  match a with
  | ⟨0, _⟩ => show win0_0.index t (0 : Fin 3) * 32 + 1 * (y 0).val = (i 0).val; omega
  | ⟨1, _⟩ => show win0_0.index t (1 : Fin 3) * 16 + 1 * (y 1).val = (i 1).val; omega
  | ⟨2, _⟩ => show win0_0.index t (2 : Fin 3) * 2048 + 1 * (y 2).val = (i 2).val; omega

/-- What grid point `t` writes back is block `t` of `KT` of the staged array. -/
theorem flushed_eq
    (hpay : ∀ (x : Vec Ideal S32x16x2048 .f32) (a : Fin 32) (k : Fin 16) (b : Fin 2048),
      out0_1 (F := Ideal) x (ix3 a k b) = lev (fun k' => x (ix3 a k' b)) k)
    (c : Dev nD) (t : Fin cfg0.N) :
    (dats m 0 c).flushed 1 t = ((cfg0.win 1).blk t).view.read (Elt Ideal) (KT (V m c main_v0)) := by
  show (cfg0.win 1).cut (grid0.coords t) ((dats m 0 c).after 1 t) = _
  rw [after0_1]
  obtain ⟨e0, e1, e2, e3, -, -⟩ := idx_facts t
  funext j
  refine out_at hpay (iblk m c 0 t) (V m c main_v0) ((cfg0.win 1).xinj (grid0.coords t) j) (((cfg0.win 1).blk t).view.emb j) ?_ ?_
  · show win0_1.index t (1 : Fin 3) * 16 + 1 * (j 1).val = (j 1).val
    omega
  · intro k'
    refine iblk_read m c t _ _ ?_ ?_ ?_
    · show win0_1.index t (0 : Fin 3) * 32 + 1 * (j 0).val = win0_0.index t (0 : Fin 3) * 32 + (j 0).val
      omega
    · show k'.val = win0_0.index t (1 : Fin 3) * 16 + k'.val
      omega
    · show win0_1.index t (2 : Fin 3) * 2048 + 1 * (j 2).val = win0_0.index t (2 : Fin 3) * 2048 + (j 2).val
      omega

/-! ## The blocks tile the output array -/

/-- An index of the output array is in point `t`'s block iff each coordinate is in the block's range on its axis. -/
theorem mem_blk (t : Fin cfg0.N) (i : S64x16x32768.Idx) :
    i ∈ ((cfg0.win 1).blk t).view.set ↔ ∀ a : Fin 3, win0_1.index t a * S32x16x2048.size a ≤ (i a).val ∧ (i a).val < win0_1.index t a * S32x16x2048.size a + S32x16x2048.size a := by
  show i ∈ ((View.whole main_v1).slice (win0_1.rect t)).set ↔ _
  rw [View.set_slice_whole, Rect.mem_set_unit]
  exact Iff.rfl

/-- Every index (a, k, s) of the output array is in the block of the grid point with block index (a / 32, 0, s / 2048),
    which writes back. -/
theorem cover (i : S64x16x32768.Idx) :
    ∃ t : Fin cfg0.N, (cfg0.win 1).flush t = true ∧ i ∈ ((cfg0.win 1).blk t).view.set := by
  have hi0 : (i 0).val < 64 := (i 0).isLt
  have hi1 : (i 1).val < 16 := (i 1).isLt
  have hi2 : (i 2).val < 32768 := (i 2).isLt
  obtain ⟨t, ht⟩ := idx_onto ⟨(i 0).val / 32, by omega⟩ ⟨(i 2).val / 2048, by omega⟩
  have q0 : win0_1.index t (0 : Fin 3) = (i 0).val / 32 := congrFun ht 0
  have q1 : win0_1.index t (1 : Fin 3) = 0 := congrFun ht 1
  have q2 : win0_1.index t (2 : Fin 3) = (i 2).val / 2048 := congrFun ht 2
  refine ⟨t, flush0_1 t, ?_⟩
  rw [mem_blk]
  intro a
  match a with
  | ⟨0, _⟩ => show win0_1.index t (0 : Fin 3) * 32 ≤ (i 0).val ∧ (i 0).val < win0_1.index t (0 : Fin 3) * 32 + 32; omega
  | ⟨1, _⟩ => show win0_1.index t (1 : Fin 3) * 16 ≤ (i 1).val ∧ (i 1).val < win0_1.index t (1 : Fin 3) * 16 + 16; omega
  | ⟨2, _⟩ => show win0_1.index t (2 : Fin 3) * 2048 ≤ (i 2).val ∧ (i 2).val < win0_1.index t (2 : Fin 3) * 2048 + 2048; omega

/-- The output array after the region is `KT` of the staged array. -/
theorem final
    (hpay : ∀ (x : Vec Ideal S32x16x2048 .f32) (a : Fin 32) (k : Fin 16) (b : Fin 2048),
      out0_1 (F := Ideal) x (ix3 a k b) = lev (fun k' => x (ix3 a k' b)) k)
    (c : Dev nD) : (dats m 0 c).arrAt 1 cfg0.N = KT (V m c main_v0) :=
  (dats m 0 c).arrAt_eq_of_cover 1 (KT (V m c main_v0)) (fun t _ => flushed_eq m hpay c t) cover

/-! ## The host lines around the region -/

/-- The array the region stages, as it finds it: the argument with its last two axes swapped. -/
theorem V_main_v0 (c : Dev nD) :
    (V m c main_v0 : Vec Ideal S64x16x32768 .f32)
      = transpose S64x16x32768 [0, 2, 1] (m ((c : Thread nD τ).loc main_arg0)) transposes_S64x32768x16_S64x16x32768_0_2_1 := by
  dsimp only [V, V0]
  simp only [hostOps0, List.flatten_cons, List.flatten_nil, List.append_nil, List.cons_append, List.nil_append]
  after_results

/-- Swapping the last two axes, applying the recursion along the middle axis, and swapping back is the recursion along the
    last axis: at an index given by its coordinates. -/
theorem swap_KT_swap_apply (X : Vec Ideal S64x32768x16 .f32) (a : Fin 64) (t : Fin 32768) (k : Fin 16) :
    transpose S64x32768x16 [0, 2, 1]
        (KT (transpose S64x16x32768 [0, 2, 1] X transposes_S64x32768x16_S64x16x32768_0_2_1))
        transposes_S64x16x32768_S64x32768x16_0_2_1 (ix3 a t k) = G X (ix3 a t k) := by
  rw [transpose_ix3_021_apply, G_apply]
  show lev (fun k' => transpose S64x16x32768 [0, 2, 1] X transposes_S64x32768x16_S64x16x32768_0_2_1 (ix3 a k' t)) k = _
  refine congrArg (fun f => lev f k) (funext fun k' => ?_)
  exact transpose_ix3_021_apply X transposes_S64x32768x16_S64x16x32768_0_2_1 a k' t

/-- The same, as an equation of arrays. -/
theorem swap_KT_swap (X : Vec Ideal S64x32768x16 .f32) :
    transpose S64x32768x16 [0, 2, 1]
        (KT (transpose S64x16x32768 [0, 2, 1] X transposes_S64x32768x16_S64x16x32768_0_2_1))
        transposes_S64x16x32768_S64x32768x16_0_2_1 = G X := by
  funext i
  obtain ⟨a, t, k, rfl⟩ : ∃ (a : Fin 64) (t : Fin 32768) (k : Fin 16), i = ix3 a t k := ⟨i 0, i 1, i 2, eq_ix3 i⟩
  exact swap_KT_swap_apply X a t k

/-- The program's result after the host line that follows the region — the region's output array with its last two
    axes swapped back — is `G` of the argument. -/
theorem tail_main_v2
    (hpay : ∀ (x : Vec Ideal S32x16x2048 .f32) (a : Fin 32) (k : Fin 16) (b : Fin 2048),
      out0_1 (F := Ideal) x (ix3 a k b) = lev (fun k' => x (ix3 a k' b)) k)
    (c : Dev nD) :
    (Pipeline.afterTail₀ cfgs (dats m) 0 (V0 m) [hostOps1] c main_v2 : Vec Ideal S64x32768x16 .f32)
      = G (m ((c : Thread nD τ).loc main_arg0)) := by
  unfold Pipeline.afterTail₀
  show StableHlo.after hostOps1 _ (Proc.devRef .tc main_v2) = _
  after_results
  rw [(Pipeline.withArrays_arr spec0 launch0.win.arr_inj c _ _ 1).trans (final m hpay c), V_main_v0]
  exact swap_KT_swap _

end Array

/-- The idealized kernel's run with its result array named, given what the body's store
    holds at an index. -/
theorem run_of
    (hpay : ∀ (x : Vec Ideal S32x16x2048 .f32) (a : Fin 32) (k : Fin 16) (b : Fin 2048),
      out0_1 (F := Ideal) x (ix3 a k b) = lev (fun k' => x (ix3 a k' b)) k)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0)) :=
  (θ_run defs _ _).mono (fun _ h c =>
      ⟨((h c).2 main_v2 (Pipeline.mem_restRefs_of main_v2 (by decide) (by decide))).trans (tail_main_v2 m hpay c),
       ((h c).2 main_arg0 (Pipeline.mem_restRefs_of main_arg0 (by decide) (by decide))).trans (W_main_arg0 m (dats m) c)⟩)
    (run_main m ρ)

end Cert.KernelIdeal.RunValue

end
-- ==== Proof.RefStep.lean ====
/-
  One step of the step-down recursion as the reference program spells it on a whole array, read at an index.

  The reference cuts the array `X : [A, B, 16]` along the last axis at the split point `w` into a head `a = X[…, 0:w]`
  and a tail `b = X[…, w:16]`, takes the reflection coefficient `κ = X[…, w]` (the tail's first entry), replaces the
  head by `(a − κ · reverse a) / (1 − κ · κ)` and concatenates the new head with the old tail. Read at `(p, q, k)`
  this is `Cert.StepDown.step w` of the fibre `k' ↦ X (p, q, k')` at `k`: below `w` the head's entry, whose mirrored
  partner `reverse a` reads at `w − 1 − k`, and from `w` on the tail's entry `X (p, q, k)` itself.
-/
import proofs.«102968_j52664888984120_1_alg».proof.Proof.StepDown
import Idealize.ShloMosaic.Lib.ValueIdx
import Idealize.ShloMosaic.Lib.ValueLayout
import Idealize.ShloMosaic.Lib.Pipeline.Value

noncomputable section

namespace Cert.RefStep

open Idealize.ShloMosaic Idealize.ShloMosaic.ValueIdx Cert.StepDown

/-- A rank-3 array cut along the last axis from `o` reads, at `(p, q, j)`, the source at `(p, q, k)` with `k = o + j`. -/
theorem slice3_axis2_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (p : Fin n0) (q : Fin n1) (j : Fin m) (k : Fin n2) (hk : k.val = o + j.val) :
    extractStridedSlice ⟨3, ![n0, n1, m]⟩ ![0, 0, o] X h (ix3 p q j) = X (ix3 p q k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An array reversed along the last axis reads, at `(p, q, k)`, the operand at `(p, q, w − 1 − k)`. -/
theorem reverse3_axis2_apply {α : Type} {n0 n1 w : Nat} (x : (⟨3, ![n0, n1, w]⟩ : Shape).Idx → α)
    (p : Fin n0) (q : Fin n1) (k : Fin w) :
    Host.reverse (s := ⟨3, ![n0, n1, w]⟩) [2] x (ix3 p q k) = x (ix3 p q ⟨w - 1 - k.val, by have := k.isLt; omega⟩) := by
  unfold Host.reverse
  refine congrArg x (funext fun ax => ?_)
  match ax with
  | ⟨0, _⟩ => rfl
  | ⟨1, _⟩ => rfl
  | ⟨2, _⟩ =>
    refine Fin.ext ?_
    show (Fin.rev k).val = w - 1 - k.val
    rw [Fin.val_rev]; omega

/-- A one-wide array broadcast along the last axis reads, at `(p, q, k)`, the operand at `(p, q, 0)`. -/
theorem bcast3_axis2_apply {α : Type} {n0 n1 w : Nat} (h0 : n0 ≠ 1) (h1 : n1 ≠ 1)
    (h : (⟨3, ![n0, n1, 1]⟩ : Shape).BroadcastsInDim ⟨3, ![n0, n1, w]⟩ ![0, 1, 2])
    (x : (⟨3, ![n0, n1, 1]⟩ : Shape).Idx → α) (p : Fin n0) (q : Fin n1) (k : Fin w) :
    broadcastInDim ⟨3, ![n0, n1, w]⟩ ![0, 1, 2] h x (ix3 p q k) = x (ix3 p q 0) :=
  broadcastInDim_apply _ _ _ _ _ (fun ax => by
    match ax with
    | ⟨0, _⟩ => exact (if_neg h0).symm
    | ⟨1, _⟩ => exact (if_neg h1).symm
    | ⟨2, _⟩ => exact (if_pos rfl).symm)

/-- THE STEP AT AN INDEX, from what its pieces read: if the head `a` and the tail `b` are the two parts of `X` cut at
    `w`, `K` reads the reflection coefficient `X (p, q, w)` everywhere and `D` reads `1 − κ · κ` everywhere, then the
    concatenation of `(a − K · reverse a) / D` with `b` is one step of the recursion on every fibre of `X`. -/
theorem concat_step {A B w r : ℕ} (hw : w < 16) (hwr : w + r = 16)
    (X : (⟨3, ![A, B, 16]⟩ : Shape).Idx → EReal)
    (a K D : FVec Ideal ⟨3, ![A, B, w]⟩ .f32) (b : FVec Ideal ⟨3, ![A, B, r]⟩ .f32)
    (hc : Shape.Concatenates [⟨3, ![A, B, w]⟩, ⟨3, ![A, B, r]⟩] ⟨3, ![A, B, 16]⟩ 2)
    (ha : ∀ (p : Fin A) (q : Fin B) (k : Fin w), a (ix3 p q k) = X (ix3 p q ⟨k.val, by have := k.isLt; omega⟩))
    (hb : ∀ (p : Fin A) (q : Fin B) (k : Fin r), b (ix3 p q k) = X (ix3 p q ⟨w + k.val, by have := k.isLt; omega⟩))
    (hK : ∀ (p : Fin A) (q : Fin B) (k : Fin w), K (ix3 p q k) = X (ix3 p q ⟨w, hw⟩))
    (hD : ∀ (p : Fin A) (q : Fin B) (k : Fin w),
      D (ix3 p q k) = one - X (ix3 p q ⟨w, hw⟩) * X (ix3 p q ⟨w, hw⟩))
    (p : Fin A) (q : Fin B) (k : Fin 16) :
    concatenate ⟨3, ![A, B, 16]⟩ 2
        [⟨⟨3, ![A, B, w]⟩, Host.divf (subf a (mulf K (Host.reverse [2] a))) D⟩, ⟨⟨3, ![A, B, r]⟩, b⟩] hc (ix3 p q k)
      = step w hw (fun k' => X (ix3 p q k')) k := by
  unfold step
  by_cases hk : k.val < w
  · rw [dif_pos hk]
    rw [concatenate_pair_apply_left (t := ⟨3, ![A, B, 16]⟩) (s₁ := ⟨3, ![A, B, w]⟩) (s₂ := ⟨3, ![A, B, r]⟩) (2 : Fin 3) _ _ hc (ix3 p q k) rfl (ix3 p q (⟨k.val, hk⟩ : Fin w))
      (fun ax => by match ax with | ⟨0, _⟩ => rfl | ⟨1, _⟩ => rfl | ⟨2, _⟩ => rfl)]
    show Ideal.div (a (ix3 p q (⟨k.val, hk⟩ : Fin w)) - K (ix3 p q (⟨k.val, hk⟩ : Fin w))
      * Host.reverse [2] a (ix3 p q (⟨k.val, hk⟩ : Fin w))) (D (ix3 p q (⟨k.val, hk⟩ : Fin w))) = _
    rw [reverse3_axis2_apply, ha, ha, hK, hD]
  · rw [dif_neg hk]
    have hkr : k.val - w < r := by have := k.isLt; omega
    rw [concatenate_pair_apply_right (t := ⟨3, ![A, B, 16]⟩) (s₁ := ⟨3, ![A, B, w]⟩) (s₂ := ⟨3, ![A, B, r]⟩) (2 : Fin 3) _ _ hc (ix3 p q k) rfl rfl (ix3 p q (⟨k.val - w, hkr⟩ : Fin r))
      (fun ax hne => by
        match ax with
        | ⟨0, _⟩ => rfl
        | ⟨1, _⟩ => rfl
        | ⟨2, _⟩ => exact absurd rfl hne)
      (show k.val - w + w = k.val by omega)]
    rw [hb]
    exact congrArg X (congrArg (ix3 p q) (Fin.ext (show w + (k.val - w) = k.val by omega)))

/-- The denominator `1 − κ · κ` as the program spells it on a one-wide array, read at an index. -/
theorem den_apply {A B : ℕ} (hb1 : (⟨0, ![]⟩ : Shape).BroadcastsInDim ⟨3, ![A, B, 1]⟩ ![])
    (κ : FVec Ideal ⟨3, ![A, B, 1]⟩ .f32) (i : (⟨3, ![A, B, 1]⟩ : Shape).Idx) :
    subf (broadcastInDim ⟨3, ![A, B, 1]⟩ ![] hb1 (constant (F := Ideal) ⟨0, ![]⟩ .f32 0x3F800000#32)) (mulf κ κ) i
      = one - κ i * κ i := rfl

/-- THE STEP WITH A HEAD WIDER THAN ONE: the reflection coefficient `κ` (a one-wide array reading `X (p, q, w)`) and the
    denominator `1 − κ · κ` are broadcast along the last axis to the head's width. -/
theorem step_wide {A B w r : ℕ} (hA : A ≠ 1) (hB : B ≠ 1) (hw : w < 16) (hwr : w + r = 16)
    (X : (⟨3, ![A, B, 16]⟩ : Shape).Idx → EReal)
    (a : FVec Ideal ⟨3, ![A, B, w]⟩ .f32) (b : FVec Ideal ⟨3, ![A, B, r]⟩ .f32) (κ : FVec Ideal ⟨3, ![A, B, 1]⟩ .f32)
    (hbk : (⟨3, ![A, B, 1]⟩ : Shape).BroadcastsInDim ⟨3, ![A, B, w]⟩ ![0, 1, 2])
    (hb1 : (⟨0, ![]⟩ : Shape).BroadcastsInDim ⟨3, ![A, B, 1]⟩ ![])
    (hc : Shape.Concatenates [⟨3, ![A, B, w]⟩, ⟨3, ![A, B, r]⟩] ⟨3, ![A, B, 16]⟩ 2)
    (ha : ∀ (p : Fin A) (q : Fin B) (k : Fin w), a (ix3 p q k) = X (ix3 p q ⟨k.val, by have := k.isLt; omega⟩))
    (hb : ∀ (p : Fin A) (q : Fin B) (k : Fin r), b (ix3 p q k) = X (ix3 p q ⟨w + k.val, by have := k.isLt; omega⟩))
    (hκ : ∀ (p : Fin A) (q : Fin B), κ (ix3 p q 0) = X (ix3 p q ⟨w, hw⟩))
    (p : Fin A) (q : Fin B) (k : Fin 16) :
    concatenate ⟨3, ![A, B, 16]⟩ 2
        [⟨⟨3, ![A, B, w]⟩, Host.divf (subf a (mulf (broadcastInDim ⟨3, ![A, B, w]⟩ ![0, 1, 2] hbk κ) (Host.reverse [2] a)))
            (broadcastInDim ⟨3, ![A, B, w]⟩ ![0, 1, 2] hbk
              (subf (broadcastInDim ⟨3, ![A, B, 1]⟩ ![] hb1 (constant ⟨0, ![]⟩ .f32 0x3F800000#32)) (mulf κ κ)))⟩,
         ⟨⟨3, ![A, B, r]⟩, b⟩] hc (ix3 p q k)
      = step w hw (fun k' => X (ix3 p q k')) k :=
  concat_step hw hwr X a _ _ b hc ha hb
    (fun p q k => by rw [bcast3_axis2_apply hA hB, hκ])
    (fun p q k => by rw [bcast3_axis2_apply hA hB, den_apply, hκ]) p q k

/-- THE FIRST STEP (split point 15): the tail is one wide and is itself the reflection coefficient. -/
theorem step_first {A B : ℕ} (hA : A ≠ 1) (hB : B ≠ 1)
    (X : (⟨3, ![A, B, 16]⟩ : Shape).Idx → EReal)
    (hsa : (⟨3, ![A, B, 16]⟩ : Shape).Slices ![0, 0, 0] ⟨3, ![A, B, 15]⟩)
    (hsb : (⟨3, ![A, B, 16]⟩ : Shape).Slices ![0, 0, 15] ⟨3, ![A, B, 1]⟩)
    (hbk : (⟨3, ![A, B, 1]⟩ : Shape).BroadcastsInDim ⟨3, ![A, B, 15]⟩ ![0, 1, 2])
    (hb1 : (⟨0, ![]⟩ : Shape).BroadcastsInDim ⟨3, ![A, B, 1]⟩ ![])
    (hc : Shape.Concatenates [⟨3, ![A, B, 15]⟩, ⟨3, ![A, B, 1]⟩] ⟨3, ![A, B, 16]⟩ 2)
    (p : Fin A) (q : Fin B) (k : Fin 16) :
    concatenate ⟨3, ![A, B, 16]⟩ 2
        [⟨⟨3, ![A, B, 15]⟩, Host.divf (F := Ideal) (φ := .f32) (subf (F := Ideal) (φ := .f32) (extractStridedSlice ⟨3, ![A, B, 15]⟩ ![0, 0, 0] X hsa)
              (mulf (F := Ideal) (φ := .f32) (broadcastInDim ⟨3, ![A, B, 15]⟩ ![0, 1, 2] hbk (extractStridedSlice ⟨3, ![A, B, 1]⟩ ![0, 0, 15] X hsb))
                (Host.reverse [2] (extractStridedSlice ⟨3, ![A, B, 15]⟩ ![0, 0, 0] X hsa))))
            (broadcastInDim ⟨3, ![A, B, 15]⟩ ![0, 1, 2] hbk
              (subf (F := Ideal) (φ := .f32) (broadcastInDim ⟨3, ![A, B, 1]⟩ ![] hb1 (constant ⟨0, ![]⟩ .f32 0x3F800000#32))
                (mulf (F := Ideal) (φ := .f32) (extractStridedSlice ⟨3, ![A, B, 1]⟩ ![0, 0, 15] X hsb)
                  (extractStridedSlice ⟨3, ![A, B, 1]⟩ ![0, 0, 15] X hsb))))⟩,
         ⟨⟨3, ![A, B, 1]⟩, extractStridedSlice ⟨3, ![A, B, 1]⟩ ![0, 0, 15] X hsb⟩] hc (ix3 p q k)
      = step 15 (by decide) (fun k' => X (ix3 p q k')) k :=
  step_wide hA hB (by decide) rfl X _ _ _ hbk hb1 hc
    (fun p q k => slice3_axis2_apply 0 X hsa p q k _ (Nat.zero_add _).symm)
    (fun p q k => slice3_axis2_apply 15 X hsb p q k _ rfl)
    (fun p q => slice3_axis2_apply 15 X hsb p q 0 _ rfl) p q k

/-- A MIDDLE STEP (split point `w`, 2 ≤ w ≤ 14): the reflection coefficient is the first entry of the tail. -/
theorem step_mid {A B w r : ℕ} (hA : A ≠ 1) (hB : B ≠ 1) (hw : w < 16) (hwr : w + r = 16)
    (X : (⟨3, ![A, B, 16]⟩ : Shape).Idx → EReal)
    (hsa : (⟨3, ![A, B, 16]⟩ : Shape).Slices ![0, 0, 0] ⟨3, ![A, B, w]⟩)
    (hsb : (⟨3, ![A, B, 16]⟩ : Shape).Slices ![0, 0, w] ⟨3, ![A, B, r]⟩)
    (hsk : (⟨3, ![A, B, r]⟩ : Shape).Slices ![0, 0, 0] ⟨3, ![A, B, 1]⟩)
    (hbk : (⟨3, ![A, B, 1]⟩ : Shape).BroadcastsInDim ⟨3, ![A, B, w]⟩ ![0, 1, 2])
    (hb1 : (⟨0, ![]⟩ : Shape).BroadcastsInDim ⟨3, ![A, B, 1]⟩ ![])
    (hc : Shape.Concatenates [⟨3, ![A, B, w]⟩, ⟨3, ![A, B, r]⟩] ⟨3, ![A, B, 16]⟩ 2)
    (p : Fin A) (q : Fin B) (k : Fin 16) :
    concatenate ⟨3, ![A, B, 16]⟩ 2
        [⟨⟨3, ![A, B, w]⟩, Host.divf (F := Ideal) (φ := .f32) (subf (F := Ideal) (φ := .f32) (extractStridedSlice ⟨3, ![A, B, w]⟩ ![0, 0, 0] X hsa)
              (mulf (F := Ideal) (φ := .f32) (broadcastInDim ⟨3, ![A, B, w]⟩ ![0, 1, 2] hbk
                  (extractStridedSlice ⟨3, ![A, B, 1]⟩ ![0, 0, 0] (extractStridedSlice ⟨3, ![A, B, r]⟩ ![0, 0, w] X hsb) hsk))
                (Host.reverse [2] (extractStridedSlice ⟨3, ![A, B, w]⟩ ![0, 0, 0] X hsa))))
            (broadcastInDim ⟨3, ![A, B, w]⟩ ![0, 1, 2] hbk
              (subf (F := Ideal) (φ := .f32) (broadcastInDim ⟨3, ![A, B, 1]⟩ ![] hb1 (constant ⟨0, ![]⟩ .f32 0x3F800000#32))
                (mulf (F := Ideal) (φ := .f32) (extractStridedSlice ⟨3, ![A, B, 1]⟩ ![0, 0, 0] (extractStridedSlice ⟨3, ![A, B, r]⟩ ![0, 0, w] X hsb) hsk)
                  (extractStridedSlice ⟨3, ![A, B, 1]⟩ ![0, 0, 0] (extractStridedSlice ⟨3, ![A, B, r]⟩ ![0, 0, w] X hsb) hsk))))⟩,
         ⟨⟨3, ![A, B, r]⟩, extractStridedSlice ⟨3, ![A, B, r]⟩ ![0, 0, w] X hsb⟩] hc (ix3 p q k)
      = step w hw (fun k' => X (ix3 p q k')) k :=
  step_wide hA hB hw hwr X _ _ _ hbk hb1 hc
    (fun p q k => slice3_axis2_apply 0 X hsa p q k _ (Nat.zero_add _).symm)
    (fun p q k => slice3_axis2_apply w X hsb p q k _ rfl)
    (fun p q => by
      rw [slice3_axis2_apply 0 _ hsk p q 0 ⟨0, by omega⟩ rfl]
      exact slice3_axis2_apply w X hsb p q ⟨0, by omega⟩ _ rfl) p q k

/-- THE LAST STEP (split point 1): the head is one wide, so nothing is broadcast, and reversing it does nothing. -/
theorem step_last {A B : ℕ}
    (X : (⟨3, ![A, B, 16]⟩ : Shape).Idx → EReal)
    (hsa : (⟨3, ![A, B, 16]⟩ : Shape).Slices ![0, 0, 0] ⟨3, ![A, B, 1]⟩)
    (hsb : (⟨3, ![A, B, 16]⟩ : Shape).Slices ![0, 0, 1] ⟨3, ![A, B, 15]⟩)
    (hsk : (⟨3, ![A, B, 15]⟩ : Shape).Slices ![0, 0, 0] ⟨3, ![A, B, 1]⟩)
    (hb1 : (⟨0, ![]⟩ : Shape).BroadcastsInDim ⟨3, ![A, B, 1]⟩ ![])
    (hc : Shape.Concatenates [⟨3, ![A, B, 1]⟩, ⟨3, ![A, B, 15]⟩] ⟨3, ![A, B, 16]⟩ 2)
    (p : Fin A) (q : Fin B) (k : Fin 16) :
    concatenate ⟨3, ![A, B, 16]⟩ 2
        [⟨⟨3, ![A, B, 1]⟩, Host.divf (F := Ideal) (φ := .f32) (subf (F := Ideal) (φ := .f32) (extractStridedSlice ⟨3, ![A, B, 1]⟩ ![0, 0, 0] X hsa)
              (mulf (F := Ideal) (φ := .f32) (extractStridedSlice ⟨3, ![A, B, 1]⟩ ![0, 0, 0] (extractStridedSlice ⟨3, ![A, B, 15]⟩ ![0, 0, 1] X hsb) hsk)
                (Host.reverse [2] (extractStridedSlice ⟨3, ![A, B, 1]⟩ ![0, 0, 0] X hsa))))
            (subf (F := Ideal) (φ := .f32) (broadcastInDim ⟨3, ![A, B, 1]⟩ ![] hb1 (constant ⟨0, ![]⟩ .f32 0x3F800000#32))
              (mulf (F := Ideal) (φ := .f32) (extractStridedSlice ⟨3, ![A, B, 1]⟩ ![0, 0, 0] (extractStridedSlice ⟨3, ![A, B, 15]⟩ ![0, 0, 1] X hsb) hsk)
                (extractStridedSlice ⟨3, ![A, B, 1]⟩ ![0, 0, 0] (extractStridedSlice ⟨3, ![A, B, 15]⟩ ![0, 0, 1] X hsb) hsk)))⟩,
         ⟨⟨3, ![A, B, 15]⟩, extractStridedSlice ⟨3, ![A, B, 15]⟩ ![0, 0, 1] X hsb⟩] hc (ix3 p q k)
      = step 1 (by decide) (fun k' => X (ix3 p q k')) k := by
  have hκ : ∀ (p : Fin A) (q : Fin B) (z : Fin 1),
      extractStridedSlice ⟨3, ![A, B, 1]⟩ ![0, 0, 0] (extractStridedSlice ⟨3, ![A, B, 15]⟩ ![0, 0, 1] X hsb) hsk (ix3 p q z)
        = X (ix3 p q ⟨1, by decide⟩) := fun p q z => by
    rw [slice3_axis2_apply 0 _ hsk p q z ⟨0, by decide⟩ (by have := z.isLt; show 0 = 0 + z.val; omega)]
    exact slice3_axis2_apply 1 X hsb p q ⟨0, by decide⟩ _ rfl
  exact concat_step (by decide) rfl X _ _ _ _ hc
    (fun p q k => slice3_axis2_apply 0 X hsa p q k _ (Nat.zero_add _).symm)
    (fun p q k => slice3_axis2_apply 1 X hsb p q k _ rfl)
    (fun p q k => hκ p q k)
    (fun p q k => by rw [den_apply, hκ]) p q k

end Cert.RefStep

end
-- ==== Proof.RefFibres.lean ====
/-
  The reference program's fifteen named step boundaries, fibre by fibre.

  The reference program's run names the whole array after each step of the recursion. Each named array, read along a fibre
  `k ↦ (p, q, k)` of the last axis, is one step (`Cert.StepDown.step`) of the same fibre of the array before it: the first
  from the argument, the last giving the run's result term. Each statement is the generic step lemma of
  `Cert.RefStep` at that boundary's literal shapes.
-/
import proofs.«102968_j52664888984120_1_alg».proof.Proof.Gen.ReferenceIdeal.Run
import proofs.«102968_j52664888984120_1_alg».proof.Proof.StepDown
import proofs.«102968_j52664888984120_1_alg».proof.Proof.RefStep

noncomputable section

namespace Cert.RefFibres

open Idealize.ShloMosaic Idealize.ShloMosaic.TcCoe Idealize.ShloMosaic.ValueIdx Idealize.SL.Sem
open Cert.ReferenceIdeal Cert.ReferenceIdeal.Gen Cert.ReferenceIdeal.Value Cert.StepDown Cert.RefStep

variable (V0 : Valuation τ sig (Elt Ideal)) (p : Fin 64) (q : Fin 32768)

/-- After the first step (split point 15): one step of the argument's fibre. -/
theorem fibre_v11 :
    (fun k => res_main_v11 V0 (ix3 p q k)) = step 15 (by decide) (fun k => V0 (Proc.devRef .tc main_arg0) (ix3 p q k)) := by
  funext k
  unfold res_main_v11 res_main_v1 res_main_v0
  exact step_first (by decide) (by decide) (V0 (Proc.devRef .tc main_arg0)) _ _ _ _ _ p q k

/-- After the step with split point 14. -/
theorem fibre_v24 :
    (fun k => res_main_v24 V0 (ix3 p q k)) = step 14 (by decide) (fun k => res_main_v11 V0 (ix3 p q k)) := by
  funext k
  unfold res_main_v24 res_main_v14 res_main_v13 res_main_v12
  exact step_mid (by decide) (by decide) (by decide) rfl (res_main_v11 V0) _ _ _ _ _ _ p q k

/-- After the step with split point 13. -/
theorem fibre_v37 :
    (fun k => res_main_v37 V0 (ix3 p q k)) = step 13 (by decide) (fun k => res_main_v24 V0 (ix3 p q k)) := by
  funext k
  unfold res_main_v37 res_main_v27 res_main_v26 res_main_v25
  exact step_mid (by decide) (by decide) (by decide) rfl (res_main_v24 V0) _ _ _ _ _ _ p q k

/-- After the step with split point 12. -/
theorem fibre_v50 :
    (fun k => res_main_v50 V0 (ix3 p q k)) = step 12 (by decide) (fun k => res_main_v37 V0 (ix3 p q k)) := by
  funext k
  unfold res_main_v50 res_main_v40 res_main_v39 res_main_v38
  exact step_mid (by decide) (by decide) (by decide) rfl (res_main_v37 V0) _ _ _ _ _ _ p q k

/-- After the step with split point 11. -/
theorem fibre_v63 :
    (fun k => res_main_v63 V0 (ix3 p q k)) = step 11 (by decide) (fun k => res_main_v50 V0 (ix3 p q k)) := by
  funext k
  unfold res_main_v63 res_main_v53 res_main_v52 res_main_v51
  exact step_mid (by decide) (by decide) (by decide) rfl (res_main_v50 V0) _ _ _ _ _ _ p q k

/-- After the step with split point 10. -/
theorem fibre_v76 :
    (fun k => res_main_v76 V0 (ix3 p q k)) = step 10 (by decide) (fun k => res_main_v63 V0 (ix3 p q k)) := by
  funext k
  unfold res_main_v76 res_main_v66 res_main_v65 res_main_v64
  exact step_mid (by decide) (by decide) (by decide) rfl (res_main_v63 V0) _ _ _ _ _ _ p q k

/-- After the step with split point 9. -/
theorem fibre_v89 :
    (fun k => res_main_v89 V0 (ix3 p q k)) = step 9 (by decide) (fun k => res_main_v76 V0 (ix3 p q k)) := by
  funext k
  unfold res_main_v89 res_main_v79 res_main_v78 res_main_v77
  exact step_mid (by decide) (by decide) (by decide) rfl (res_main_v76 V0) _ _ _ _ _ _ p q k

/-- After the step with split point 8. -/
theorem fibre_v102 :
    (fun k => res_main_v102 V0 (ix3 p q k)) = step 8 (by decide) (fun k => res_main_v89 V0 (ix3 p q k)) := by
  funext k
  unfold res_main_v102 res_main_v92 res_main_v91 res_main_v90
  exact step_mid (by decide) (by decide) (by decide) rfl (res_main_v89 V0) _ _ _ _ _ _ p q k

/-- After the step with split point 7. -/
theorem fibre_v115 :
    (fun k => res_main_v115 V0 (ix3 p q k)) = step 7 (by decide) (fun k => res_main_v102 V0 (ix3 p q k)) := by
  funext k
  unfold res_main_v115 res_main_v105 res_main_v104 res_main_v103
  exact step_mid (by decide) (by decide) (by decide) rfl (res_main_v102 V0) _ _ _ _ _ _ p q k

/-- After the step with split point 6. -/
theorem fibre_v128 :
    (fun k => res_main_v128 V0 (ix3 p q k)) = step 6 (by decide) (fun k => res_main_v115 V0 (ix3 p q k)) := by
  funext k
  unfold res_main_v128 res_main_v118 res_main_v117 res_main_v116
  exact step_mid (by decide) (by decide) (by decide) rfl (res_main_v115 V0) _ _ _ _ _ _ p q k

/-- After the step with split point 5. -/
theorem fibre_v141 :
    (fun k => res_main_v141 V0 (ix3 p q k)) = step 5 (by decide) (fun k => res_main_v128 V0 (ix3 p q k)) := by
  funext k
  unfold res_main_v141 res_main_v131 res_main_v130 res_main_v129
  exact step_mid (by decide) (by decide) (by decide) rfl (res_main_v128 V0) _ _ _ _ _ _ p q k

/-- After the step with split point 4. -/
theorem fibre_v154 :
    (fun k => res_main_v154 V0 (ix3 p q k)) = step 4 (by decide) (fun k => res_main_v141 V0 (ix3 p q k)) := by
  funext k
  unfold res_main_v154 res_main_v144 res_main_v143 res_main_v142
  exact step_mid (by decide) (by decide) (by decide) rfl (res_main_v141 V0) _ _ _ _ _ _ p q k

/-- After the step with split point 3. -/
theorem fibre_v167 :
    (fun k => res_main_v167 V0 (ix3 p q k)) = step 3 (by decide) (fun k => res_main_v154 V0 (ix3 p q k)) := by
  funext k
  unfold res_main_v167 res_main_v157 res_main_v156 res_main_v155
  exact step_mid (by decide) (by decide) (by decide) rfl (res_main_v154 V0) _ _ _ _ _ _ p q k

/-- After the step with split point 2. -/
theorem fibre_v180 :
    (fun k => res_main_v180 V0 (ix3 p q k)) = step 2 (by decide) (fun k => res_main_v167 V0 (ix3 p q k)) := by
  funext k
  unfold res_main_v180 res_main_v170 res_main_v169 res_main_v168
  exact step_mid (by decide) (by decide) (by decide) rfl (res_main_v167 V0) _ _ _ _ _ _ p q k

end Cert.RefFibres

end
-- ==== Proof.RefValue.lean ====
/-
  The reference's run ends with the recursion applied to every fibre along the last axis of its argument: the run's
  result term is the last of fifteen step boundaries, each one step of the fibre of the boundary before it.
-/
import proofs.«102968_j52664888984120_1_alg».proof.Proof.Gen.ReferenceIdeal.Run
import proofs.«102968_j52664888984120_1_alg».proof.Proof.StepDown
import proofs.«102968_j52664888984120_1_alg».proof.Proof.RefStep
import proofs.«102968_j52664888984120_1_alg».proof.Proof.RefFibres
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.StepDown Cert.RefStep Cert.RefFibres

/-- The reference run's result term is the recursion applied to every fibre of the
    argument array. -/
theorem result_eq (V0 : Valuation τ sig (Elt Ideal)) :
    concatenate S64x32768x16 2 [⟨S64x32768x1, (Host.divf (subf (res_main_v181 V0) (mulf (res_main_v183 V0) (Host.reverse [2] (res_main_v181 V0)))) (subf (broadcastInDim S64x32768x1 ![] bcast_S_S64x32768x1 (constant S_ .f32 0x3F800000#32)) (mulf (res_main_v183 V0) (res_main_v183 V0))))⟩, ⟨S64x32768x15, (res_main_v182 V0)⟩] concatenates_S64x32768x1_S64x32768x15_S64x32768x16_d2
      = G (V0 (Proc.devRef .tc main_arg0)) := by
  funext i
  obtain ⟨p, q, k, rfl⟩ : ∃ (p : Fin 64) (q : Fin 32768) (k : Fin 16), i = ix3 p q k := ⟨i 0, i 1, i 2, eq_ix3 i⟩
  rw [G_apply]
  unfold lev
  -- fold the fourteen inner steps into the named arrays, innermost first
  rw [← fibre_v11 V0 p q,
    ← fibre_v24 V0 p q,
    ← fibre_v37 V0 p q,
    ← fibre_v50 V0 p q,
    ← fibre_v63 V0 p q,
    ← fibre_v76 V0 p q,
    ← fibre_v89 V0 p q,
    ← fibre_v102 V0 p q,
    ← fibre_v115 V0 p q,
    ← fibre_v128 V0 p q,
    ← fibre_v141 V0 p q,
    ← fibre_v154 V0 p q,
    ← fibre_v167 V0 p q,
    ← fibre_v180 V0 p q]
  -- the last step (split point 1) of the array after split point 2
  unfold res_main_v183 res_main_v182 res_main_v181
  exact step_last (res_main_v180 V0) _ _ _ _ _ p q k

end Cert.ReferenceIdeal.RefValue

end
-- ==== Proof.lean ====
/-
  The kernel against its reference: the step-down recursion from predictor to reflection coefficients, fifteen steps
  along the length-16 coefficient axis of an `f32[64, 32768, 16]` array.

  The reference runs the steps on the array as it is (coefficients along the last axis).  The kernel transposes to
  `[64, 16, 32768]`, runs the same fifteen steps along axis 1 on `[32, 16, 2048]` blocks over a 2 × 16 grid, and
  transposes back.  Each step takes the reflection coefficient κ = x[w], replaces x[k] by
  (x[k] − κ · x[w − 1 − k]) / (1 − κ · κ) for k < w and keeps the rest; both programs use the same subtraction, product and
  quotient in the same order and the same word for 1, so at the ideal instance they are one function, fibre by fibre
  (`Cert.StepDown.G`): no algebraic law joins them, and the precondition is not used.

    * `Proof/StepDown.lean`: the recursion on sixteen extended reals, and `G`, its fibrewise lift;
    * `Proof/KernelStep.lean`, `KernelStepRead.lean`: one step in the kernel's spelling (slices, the mirrored rows as a
      concatenation of single rows, a row broadcast) is the specification's step of each fibre;
    * `Proof/KernelPayload.lean`: the body's store holds the fifteen steps of the input block;
    * `Proof/KernelArray.lean`: blocks to the whole array, and the two transposes around the region;
    * `Proof/RefStep.lean`, `RefFibres.lean`, `RefValue.lean`: the reference's run is `G` of its argument.
-/
import proofs.«102968_j52664888984120_1_alg».proof.Defs
import proofs.«102968_j52664888984120_1_alg».proof.Proof.Gen.Kernel
import proofs.«102968_j52664888984120_1_alg».proof.Proof.Gen.Kernel.Skeleton
import proofs.«102968_j52664888984120_1_alg».proof.Proof.Gen.Kernel.Launch
import proofs.«102968_j52664888984120_1_alg».proof.Proof.Gen.Kernel.Points
import proofs.«102968_j52664888984120_1_alg».proof.Proof.Gen.Kernel.Frame
import proofs.«102968_j52664888984120_1_alg».proof.Proof.Gen.KernelIdeal
import proofs.«102968_j52664888984120_1_alg».proof.Proof.Gen.KernelIdeal.Skeleton
import proofs.«102968_j52664888984120_1_alg».proof.Proof.Gen.KernelIdeal.Launch
import proofs.«102968_j52664888984120_1_alg».proof.Proof.Gen.KernelIdeal.Points
import proofs.«102968_j52664888984120_1_alg».proof.Proof.Gen.KernelIdeal.Frame
import proofs.«102968_j52664888984120_1_alg».proof.Proof.Gen.ReferenceIdeal
import proofs.«102968_j52664888984120_1_alg».proof.Proof.Gen.Pre_finite_inputs
import proofs.«102968_j52664888984120_1_alg».proof.Proof.Gen.ReferenceIdeal.Run
import proofs.«102968_j52664888984120_1_alg».proof.Proof.KernelPayload
import proofs.«102968_j52664888984120_1_alg».proof.Proof.KernelArray
import proofs.«102968_j52664888984120_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its argument. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the recursion applied to every fibre of the (agreeing) argument arrays. -/
theorem algebraic : Cert.algebraic_KernelIdeal_ReferenceIdeal := by
  intro m ρ m' ρ' _ hagree
  refine ⟨fun c => Cert.StepDown.G (m ((c.tc : Thread Cert.KernelIdeal.nD Cert.KernelIdeal.τ).loc Cert.KernelIdeal.main_arg0)),
    Cert.KernelIdeal.RunValue.run_of Cert.KernelIdeal.Payload.out_apply m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  exact congrArg Cert.StepDown.G (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
